-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x6145 : Shape := ⟨2, ![16, 6145]⟩
abbrev S259x256 : Shape := ⟨2, ![259, 256]⟩
abbrev S4x256 : Shape := ⟨2, ![4, 256]⟩
abbrev S1000x256 : Shape := ⟨2, ![1000, 256]⟩
abbrev S_ : Shape := ⟨0, ![]⟩

class Facts : Prop where
  bcast_S_S259x256 : S_.BroadcastsInDim S259x256 (![] : Fin 0 → Fin S259x256.rank)
  reducesTo_S259x256_S_d0_1 : S259x256.ReducesTo [0, 1] S_
  h_S_ : 0 < S_.numel
  bcast_S_S4x256 : S_.BroadcastsInDim S4x256 (![] : Fin 0 → Fin S4x256.rank)
  reducesTo_S4x256_S_d0_1 : S4x256.ReducesTo [0, 1] S_
  bcast_S_S1000x256 : S_.BroadcastsInDim S1000x256 (![] : Fin 0 → Fin S1000x256.rank)
  reducesTo_S1000x256_S_d0_1 : S1000x256.ReducesTo [0, 1] S_
  bcast_S_S16x6145 : S_.BroadcastsInDim S16x6145 (![] : Fin 0 → Fin S16x6145.rank)
  reducesTo_S16x6145_S_d0_1 : S16x6145.ReducesTo [0, 1] S_

variable [Facts]

def fn_part2 {F : FTy → Type} [FloatOps F] (main_v27 : IVec S_ 1) (main_v32 : IVec S16x6145 1) (main_c_12 : IVec S_ 1) : IVec S_ 1 :=
  let main_v33 : IVec S_ 1 := (fun x v => Host.reduce IntOp.andi x v reducesTo_S16x6145_S_d0_1 h_S_) main_v32 main_c_12
  let main_v34 : IVec S_ 1 := andi main_v27 main_v33
  main_v34

def fn_part1 {F : FTy → Type} [FloatOps F] (main_arg0 : IVec S16x6145 32) (main_arg1 : IVec S16x6145 32) (main_arg2 : IVec S16x6145 32) (main_v13 : IVec S_ 1) (main_v15 : IVec S16x6145 1) (main_c_5 : IVec S_ 32) : IVec S_ 1 :=
  let main_v16 : IVec S16x6145 32 := broadcastInDim S16x6145 ![] bcast_S_S16x6145 main_c_5
  let main_v17 : IVec S16x6145 1 := cmpi .slt main_arg0 main_v16
  let main_v18 : IVec S16x6145 1 := andi main_v15 main_v17
  let main_c_6 : IVec S_ 1 := constantI S_ 1 1#1
  let main_v19 : IVec S_ 1 := (fun x v => Host.reduce IntOp.andi x v reducesTo_S16x6145_S_d0_1 h_S_) main_v18 main_c_6
  let main_v20 : IVec S_ 1 := andi main_v13 main_v19
  let main_c_7 : IVec S_ 32 := constantI S_ 32 0#32
  let main_v21 : IVec S16x6145 32 := broadcastInDim S16x6145 ![] bcast_S_S16x6145 main_c_7
  let main_v22 : IVec S16x6145 1 := cmpi .sge main_arg1 main_v21
  let main_c_8 : IVec S_ 32 := constantI S_ 32 4#32
  let main_v23 : IVec S16x6145 32 := broadcastInDim S16x6145 ![] bcast_S_S16x6145 main_c_8
  let main_v24 : IVec S16x6145 1 := cmpi .slt main_arg1 main_v23
  let main_v25 : IVec S16x6145 1 := andi main_v22 main_v24
  let main_c_9 : IVec S_ 1 := constantI S_ 1 1#1
  let main_v26 : IVec S_ 1 := (fun x v => Host.reduce IntOp.andi x v reducesTo_S16x6145_S_d0_1 h_S_) main_v25 main_c_9
  let main_v27 : IVec S_ 1 := andi main_v20 main_v26
  let main_c_10 : IVec S_ 32 := constantI S_ 32 0#32
  let main_v28 : IVec S16x6145 32 := broadcastInDim S16x6145 ![] bcast_S_S16x6145 main_c_10
  let main_v29 : IVec S16x6145 1 := cmpi .sge main_arg2 main_v28
  let main_c_11 : IVec S_ 32 := constantI S_ 32 1000#32
  let main_v30 : IVec S16x6145 32 := broadcastInDim S16x6145 ![] bcast_S_S16x6145 main_c_11
  let main_v31 : IVec S16x6145 1 := cmpi .slt main_arg2 main_v30
  let main_v32 : IVec S16x6145 1 := andi main_v29 main_v31
  let main_c_12 : IVec S_ 1 := constantI S_ 1 1#1
  fn_part2 (F := F) main_v27 main_v32 main_c_12

def fn {F : FTy → Type} [FloatOps F] (main_arg0 : IVec S16x6145 32) (main_arg1 : IVec S16x6145 32) (main_arg2 : IVec S16x6145 32) (main_arg3 : FVec F S259x256 .f32) (main_arg4 : FVec F S4x256 .f32) (main_arg5 : FVec F S1000x256 .f32) : IVec S_ 1 :=
  let main_v0 : FVec F S259x256 .f32 := Host.absf main_arg3
  let main_cst : FVec F S_ .f32 := constant S_ .f32 0x7F800000#32
  let main_v1 : FVec F S259x256 .f32 := broadcastInDim S259x256 ![] bcast_S_S259x256 main_cst
  let main_v2 : IVec S259x256 1 := cmpf .olt main_v0 main_v1
  let main_c : IVec S_ 1 := constantI S_ 1 1#1
  let main_v3 : IVec S_ 1 := (fun x v => Host.reduce IntOp.andi x v reducesTo_S259x256_S_d0_1 h_S_) main_v2 main_c
  let main_v4 : FVec F S4x256 .f32 := Host.absf main_arg4
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_c_1 : IVec S_ 1 := constantI S_ 1 1#1
  let main_v7 : IVec S_ 1 := (fun x v => Host.reduce IntOp.andi x v reducesTo_S4x256_S_d0_1 h_S_) main_v6 main_c_1
  let main_v8 : IVec S_ 1 := andi main_v3 main_v7
  let main_v9 : FVec F S1000x256 .f32 := Host.absf main_arg5
  let main_cst_2 : FVec F S_ .f32 := constant S_ .f32 0x7F800000#32
  let main_v10 : FVec F S1000x256 .f32 := broadcastInDim S1000x256 ![] bcast_S_S1000x256 main_cst_2
  let main_v11 : IVec S1000x256 1 := cmpf .olt main_v9 main_v10
  let main_c_3 : IVec S_ 1 := constantI S_ 1 1#1
  let main_v12 : IVec S_ 1 := (fun x v => Host.reduce IntOp.andi x v reducesTo_S1000x256_S_d0_1 h_S_) main_v11 main_c_3
  let main_v13 : IVec S_ 1 := andi main_v8 main_v12
  let main_c_4 : IVec S_ 32 := constantI S_ 32 0#32
  let main_v14 : IVec S16x6145 32 := broadcastInDim S16x6145 ![] bcast_S_S16x6145 main_c_4
  let main_v15 : IVec S16x6145 1 := cmpi .sge main_arg0 main_v14
  let main_c_5 : IVec S_ 32 := constantI S_ 32 259#32
  fn_part1 (F := F) main_arg0 main_arg1 main_arg2 main_v13 main_v15 main_c_5
-- ==== Kernel.lean ====
abbrev S16x6145 : Shape := ⟨2, ![16, 6145]⟩
abbrev S259x256 : Shape := ⟨2, ![259, 256]⟩
abbrev S4x256 : Shape := ⟨2, ![4, 256]⟩
abbrev S1000x256 : Shape := ⟨2, ![1000, 256]⟩
abbrev S16x6144 : Shape := ⟨2, ![16, 6144]⟩
abbrev S16x2048x3 : Shape := ⟨3, ![16, 2048, 3]⟩
abbrev S16x3x2048 : Shape := ⟨3, ![16, 3, 2048]⟩
abbrev S263x256 : Shape := ⟨2, ![263, 256]⟩
abbrev S16x2048x256 : Shape := ⟨3, ![16, 2048, 256]⟩
abbrev S8x3x256 : Shape := ⟨3, ![8, 3, 256]⟩
abbrev S8x256x256 : Shape := ⟨3, ![8, 256, 256]⟩
abbrev S8x1x256 : Shape := ⟨3, ![8, 1, 256]⟩
abbrev S8x256 : Shape := ⟨2, ![8, 256]⟩
abbrev S8x256x259 : Shape := ⟨3, ![8, 256, 259]⟩
abbrev S8x256x1 : Shape := ⟨3, ![8, 256, 1]⟩
abbrev S8x256x4 : Shape := ⟨3, ![8, 256, 4]⟩
abbrev S8x256x263 : Shape := ⟨3, ![8, 256, 263]⟩
abbrev S2048x263 : Shape := ⟨2, ![2048, 263]⟩
abbrev S2048x256 : Shape := ⟨2, ![2048, 256]⟩
abbrev S8x256x1000 : Shape := ⟨3, ![8, 256, 1000]⟩
abbrev S2048x1000 : Shape := ⟨2, ![2048, 1000]⟩

abbrev nBuf : Space → Nat
  | .hbm => 25
  | .vmem => 12
  | .smem => 0
  | _ => 0

abbrev bufTy : (tb : Table) → Fin (tcTables nBuf tb) → BufTy
  | .hbm, ⟨0, _⟩ => ⟨S16x6145, .i32⟩
  | .hbm, ⟨1, _⟩ => ⟨S16x6145, .i32⟩
  | .hbm, ⟨2, _⟩ => ⟨S16x6145, .i32⟩
  | .hbm, ⟨3, _⟩ => ⟨S259x256, .f32⟩
  | .hbm, ⟨4, _⟩ => ⟨S4x256, .f32⟩
  | .hbm, ⟨5, _⟩ => ⟨S1000x256, .f32⟩
  | .hbm, ⟨6, _⟩ => ⟨S16x6144, .i32⟩
  | .hbm, ⟨7, _⟩ => ⟨S16x2048x3, .i32⟩
  | .hbm, ⟨8, _⟩ => ⟨S16x3x2048, .i32⟩
  | .hbm, ⟨9, _⟩ => ⟨S16x6144, .i32⟩
  | .hbm, ⟨10, _⟩ => ⟨S16x2048x3, .i32⟩
  | .hbm, ⟨11, _⟩ => ⟨S16x3x2048, .i32⟩
  | .hbm, ⟨12, _⟩ => ⟨S16x6144, .i32⟩
  | .hbm, ⟨13, _⟩ => ⟨S16x2048x3, .i32⟩
  | .hbm, ⟨14, _⟩ => ⟨S16x3x2048, .i32⟩
  | .hbm, ⟨15, _⟩ => ⟨S263x256, .f32⟩
  | .hbm, ⟨16, _⟩ => ⟨S263x256, .bf16⟩
  | .hbm, ⟨17, _⟩ => ⟨S263x256, .f32⟩
  | .hbm, ⟨18, _⟩ => ⟨S263x256, .f32⟩
  | .hbm, ⟨19, _⟩ => ⟨S263x256, .bf16⟩
  | .hbm, ⟨20, _⟩ => ⟨S1000x256, .bf16⟩
  | .hbm, ⟨21, _⟩ => ⟨S1000x256, .f32⟩
  | .hbm, ⟨22, _⟩ => ⟨S1000x256, .f32⟩
  | .hbm, ⟨23, _⟩ => ⟨S1000x256, .bf16⟩
  | .hbm, ⟨24, _⟩ => ⟨S16x2048x256, .f32⟩
  | .local _ .vmem, ⟨0, _⟩ => ⟨S8x3x256, .i32⟩
  | .local _ .vmem, ⟨1, _⟩ => ⟨S8x3x256, .i32⟩
  | .local _ .vmem, ⟨2, _⟩ => ⟨S8x3x256, .i32⟩
  | .local _ .vmem, ⟨3, _⟩ => ⟨S8x3x256, .i32⟩
  | .local _ .vmem, ⟨4, _⟩ => ⟨S8x3x256, .i32⟩
  | .local _ .vmem, ⟨5, _⟩ => ⟨S8x3x256, .i32⟩
  | .local _ .vmem, ⟨6, _⟩ => ⟨S263x256, .bf16⟩
  | .local _ .vmem, ⟨7, _⟩ => ⟨S263x256, .bf16⟩
  | .local _ .vmem, ⟨8, _⟩ => ⟨S1000x256, .bf16⟩
  | .local _ .vmem, ⟨9, _⟩ => ⟨S1000x256, .bf16⟩
  | .local _ .vmem, ⟨10, _⟩ => ⟨S8x256x256, .f32⟩
  | .local _ .vmem, ⟨11, _⟩ => ⟨S8x256x256, .f32⟩
  | _, _ => ⟨S16x6145, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x3x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x3x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S263x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S263x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1000x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1000x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S16x6145_S16x6144_0_0 : S16x6145.Slices ![0, 0] S16x6144
  shapeCasts_S16x6144_S16x2048x3 : S16x6144.ShapeCasts S16x2048x3
  transposes_S16x2048x3_S16x3x2048_0_2_1 : S16x2048x3.Transposes [0, 2, 1] S16x3x2048
  concatenates_S259x256_S4x256_S263x256_d0 : Shape.Concatenates [S259x256, S4x256] S263x256 0
  bitsLt_bf16_f32 : FTy.bits .bf16 < FTy.bits .f32
  inb_S8x3x256_S8x3x256_0_0_0 : ∀ a, (![0, 0, 0] : Fin 3 → Nat) a + S8x3x256.size a ≤ S8x3x256.size a
  h_S8x3x256 : 0 < S8x3x256.numel
  shapeCasts_S8x3x256_S8x3x256 : S8x3x256.ShapeCasts S8x3x256
  slices_S8x3x256_o0_0_0_S8x1x256 : S8x3x256.Slices ![0, 0, 0] S8x1x256
  shapeCasts_S8x1x256_S8x256 : S8x1x256.ShapeCasts S8x256
  iota_S8x256x259_d2_w32 : S8x256x259.Iotas .tc 32 [2]
  shapeCasts_S8x256_S8x256x1 : S8x256.ShapeCasts S8x256x1
  broadcasts_S8x256x1_S8x256x259 : S8x256x1.Broadcasts S8x256x259
  natLt_1_32 : 1 < 32
  slices_S8x3x256_o0_1_0_S8x1x256 : S8x3x256.Slices ![0, 1, 0] S8x1x256
  slices_S8x3x256_o0_2_0_S8x1x256 : S8x3x256.Slices ![0, 2, 0] S8x1x256
  iota_S8x256x4_d2_w32 : S8x256x4.Iotas .tc 32 [2]
  broadcasts_S8x256x1_S8x256x4 : S8x256x1.Broadcasts S8x256x4
  concatenates_S8x256x259_S8x256x4_S8x256x263_d2 : Shape.Concatenates [S8x256x259, S8x256x4] S8x256x263 2
  shapeCasts_S8x256x263_S2048x263 : S8x256x263.ShapeCasts S2048x263
  inb_S263x256_S263x256_0_0 : ∀ a, (![0, 0] : Fin 2 → Nat) a + S263x256.size a ≤ S263x256.size a
  h_S263x256 : 0 < S263x256.numel
  shapeCasts_S263x256_S263x256 : S263x256.ShapeCasts S263x256
  shapeCasts_S2048x256_S8x256x256 : S2048x256.ShapeCasts S8x256x256
  iota_S8x256x1000_d2_w32 : S8x256x1000.Iotas .tc 32 [2]
  broadcasts_S8x256x1_S8x256x1000 : S8x256x1.Broadcasts S8x256x1000
  shapeCasts_S8x256x1000_S2048x1000 : S8x256x1000.ShapeCasts S2048x1000
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S8x256x256_S8x256x256_0_0_0 : ∀ a, (![0, 0, 0] : Fin 3 → Nat) a + S8x256x256.size a ≤ S8x256x256.size a
  h_S8x256x256 : 0 < S8x256x256.numel
  dot_S2048x263_S263x256_S2048x256_1_0_0_1_n_n_wf : DotDims.WF S2048x263 S263x256 S2048x256 [1] [0] [0] [1] [] []
  dot_S2048x1000_S1000x256_S2048x256_1_0_0_1_n_n_wf : DotDims.WF S2048x1000 S1000x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x256.size a ≤ S16x3x2048.size a
  hwx0_0 : ∀ i : grid0.Coords, EltTy.bits .i32 = 32 ∨ (Rect.block (s := S16x3x2048) S8x3x256.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3x256.size a ≤ S16x3x2048.size a
  hwx0_1 : ∀ i : grid0.Coords, EltTy.bits .i32 = 32 ∨ (Rect.block (s := S16x3x2048) S8x3x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x3x256.size a ≤ S16x3x2048.size a
  hwx0_2 : ∀ i : grid0.Coords, EltTy.bits .i32 = 32 ∨ (Rect.block (s := S16x3x2048) S8x3x256.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S263x256.size a ≤ S263x256.size a
  hwx0_3 : ∀ i : grid0.Coords, EltTy.bits .bf16 = 32 ∨ (Rect.block (s := S263x256) S263x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S263x256.size a ≤ S263x256.size a
  hwx0_4 : ∀ i : grid0.Coords, EltTy.bits .bf16 = 32 ∨ (Rect.block (s := S263x256) S263x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1000x256.size a ≤ S1000x256.size a
  hwx0_5 : ∀ i : grid0.Coords, EltTy.bits .bf16 = 32 ∨ (Rect.block (s := S1000x256) S1000x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1000x256.size a ≤ S1000x256.size a
  hwx0_6 : ∀ i : grid0.Coords, EltTy.bits .bf16 = 32 ∨ (Rect.block (s := S1000x256) S1000x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x256x256.size a ≤ S16x2048x256.size a
  hwx0_7 : ∀ i : grid0.Coords, EltTy.bits .f32 = 32 ∨ (Rect.block (s := S16x2048x256) S8x256x256.size (cc0_transform_7 i) (hinb0_7 i)).WholeWords (EltTy.packing .f32)

variable [Facts₀]

def dot_S2048x263_S263x256_S2048x256_1_0_0_1_n_n : DotDims S2048x263 S263x256 S2048x256 where
  lhsContracting := [1]
  rhsContracting := [0]
  lhsNonContracting := [0]
  rhsNonContracting := [1]
  lhsBatch := []
  rhsBatch := []
  wf := dot_S2048x263_S263x256_S2048x256_1_0_0_1_n_n_wf
def dot_S2048x1000_S1000x256_S2048x256_1_0_0_1_n_n : DotDims S2048x1000 S1000x256 S2048x256 where
  lhsContracting := [1]
  rhsContracting := [0]
  lhsNonContracting := [0]
  rhsNonContracting := [1]
  lhsBatch := []
  rhsBatch := []
  wf := dot_S2048x1000_S1000x256_S2048x256_1_0_0_1_n_n_wf

abbrev win0_0 : Pipeline.Window sig grid0 :=
  Pipeline.Window.ofSpec (Memref.whole main_v2) S8x3x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8x3x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S8x3x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S263x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S263x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1000x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1000x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S8x256x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x6145 : Shape := ⟨2, ![16, 6145]⟩
abbrev S259x256 : Shape := ⟨2, ![259, 256]⟩
abbrev S4x256 : Shape := ⟨2, ![4, 256]⟩
abbrev S1000x256 : Shape := ⟨2, ![1000, 256]⟩
abbrev S_ : Shape := ⟨0, ![]⟩
abbrev S16x6145x1 : Shape := ⟨3, ![16, 6145, 1]⟩
abbrev S16x6145x256 : Shape := ⟨3, ![16, 6145, 256]⟩
abbrev S16x6144x256 : Shape := ⟨3, ![16, 6144, 256]⟩
abbrev S16x2048x3x256 : Shape := ⟨4, ![16, 2048, 3, 256]⟩
abbrev S16x2048x256 : Shape := ⟨3, ![16, 2048, 256]⟩

abbrev nBuf : Space → Nat
  | .hbm => 42
  | .vmem => 0
  | .smem => 0
  | _ => 0

abbrev bufTy : (tb : Table) → Fin (tcTables nBuf tb) → BufTy
  | .hbm, ⟨0, _⟩ => ⟨S16x6145, .i32⟩
  | .hbm, ⟨1, _⟩ => ⟨S16x6145, .i32⟩
  | .hbm, ⟨2, _⟩ => ⟨S16x6145, .i32⟩
  | .hbm, ⟨3, _⟩ => ⟨S259x256, .f32⟩
  | .hbm, ⟨4, _⟩ => ⟨S4x256, .f32⟩
  | .hbm, ⟨5, _⟩ => ⟨S1000x256, .f32⟩
  | .hbm, ⟨6, _⟩ => ⟨S_, .i32⟩
  | .hbm, ⟨7, _⟩ => ⟨S16x6145, .i32⟩
  | .hbm, ⟨8, _⟩ => ⟨S16x6145, .i1⟩
  | .hbm, ⟨9, _⟩ => ⟨S_, .i32⟩
  | .hbm, ⟨10, _⟩ => ⟨S16x6145, .i32⟩
  | .hbm, ⟨11, _⟩ => ⟨S16x6145, .i32⟩
  | .hbm, ⟨12, _⟩ => ⟨S16x6145, .i32⟩
  | .hbm, ⟨13, _⟩ => ⟨S16x6145x1, .i32⟩
  | .hbm, ⟨14, _⟩ => ⟨S16x6145x256, .f32⟩
  | .hbm, ⟨15, _⟩ => ⟨S_, .i32⟩
  | .hbm, ⟨16, _⟩ => ⟨S16x6145, .i32⟩
  | .hbm, ⟨17, _⟩ => ⟨S16x6145, .i1⟩
  | .hbm, ⟨18, _⟩ => ⟨S_, .i32⟩
  | .hbm, ⟨19, _⟩ => ⟨S16x6145, .i32⟩
  | .hbm, ⟨20, _⟩ => ⟨S16x6145, .i32⟩
  | .hbm, ⟨21, _⟩ => ⟨S16x6145, .i32⟩
  | .hbm, ⟨22, _⟩ => ⟨S16x6145x1, .i32⟩
  | .hbm, ⟨23, _⟩ => ⟨S16x6145x256, .f32⟩
  | .hbm, ⟨24, _⟩ => ⟨S16x6145x256, .f32⟩
  | .hbm, ⟨25, _⟩ => ⟨S_, .i32⟩
  | .hbm, ⟨26, _⟩ => ⟨S16x6145, .i32⟩
  | .hbm, ⟨27, _⟩ => ⟨S16x6145, .i1⟩
  | .hbm, ⟨28, _⟩ => ⟨S_, .i32⟩
  | .hbm, ⟨29, _⟩ => ⟨S16x6145, .i32⟩
  | .hbm, ⟨30, _⟩ => ⟨S16x6145, .i32⟩
  | .hbm, ⟨31, _⟩ => ⟨S16x6145, .i32⟩
  | .hbm, ⟨32, _⟩ => ⟨S16x6145x1, .i32⟩
  | .hbm, ⟨33, _⟩ => ⟨S16x6145x256, .f32⟩
  | .hbm, ⟨34, _⟩ => ⟨S16x6145x256, .f32⟩
  | .hbm, ⟨35, _⟩ => ⟨S_, .f32⟩
  | .hbm, ⟨36, _⟩ => ⟨S16x6145x256, .f32⟩
  | .hbm, ⟨37, _⟩ => ⟨S16x6145x256, .f32⟩
  | .hbm, ⟨38, _⟩ => ⟨S16x6144x256, .f32⟩
  | .hbm, ⟨39, _⟩ => ⟨S16x2048x3x256, .f32⟩
  | .hbm, ⟨40, _⟩ => ⟨S_, .f32⟩
  | .hbm, ⟨41, _⟩ => ⟨S16x2048x256, .f32⟩
  | _, _ => ⟨S16x6145, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  bcast_S_S16x6145 : S_.BroadcastsInDim S16x6145 (![] : Fin 0 → Fin S16x6145.rank)
  bcast_S16x6145_S16x6145x1_0_1 : S16x6145.BroadcastsInDim S16x6145x1 (![0, 1] : Fin 2 → Fin S16x6145x1.rank)
  bcast_S_S16x6145x256 : S_.BroadcastsInDim S16x6145x256 (![] : Fin 0 → Fin S16x6145x256.rank)
  slices_S16x6145x256_S16x6144x256_0_0_0 : S16x6145x256.Slices ![0, 0, 0] S16x6144x256
  shapeCasts_S16x6144x256_S16x2048x3x256 : S16x6144x256.ShapeCasts S16x2048x3x256
  reducesTo_S16x2048x3x256_S16x2048x256_d2 : S16x2048x3x256.ReducesTo [2] S16x2048x256
  h_S_ : 0 < S_.numel
  gather_S259x256_S16x6145x1_S16x6145x256_2_0_n_n_0_2_1256_wf : GatherDims.WF S259x256 S16x6145x1 S16x6145x256 [2] [0] [] [0] [] 2 ![1, 256]
  gather_S4x256_S16x6145x1_S16x6145x256_2_0_n_n_0_2_1256_wf : GatherDims.WF S4x256 S16x6145x1 S16x6145x256 [2] [0] [] [0] [] 2 ![1, 256]
  gather_S1000x256_S16x6145x1_S16x6145x256_2_0_n_n_0_2_1256_wf : GatherDims.WF S1000x256 S16x6145x1 S16x6145x256 [2] [0] [] [0] [] 2 ![1, 256]

variable [Facts₀]

def gather_S259x256_S16x6145x1_S16x6145x256_2_0_n_n_0_2_1256 : GatherDims S259x256 S16x6145x1 S16x6145x256 where
  offsetDims := [2]
  collapsedSliceDims := [0]
  operandBatchingDims := []
  startIndicesBatchingDims := []
  startIndexMap := [0]
  indexVectorDim := 2
  sliceSizes := ![1, 256]
  wf := gather_S259x256_S16x6145x1_S16x6145x256_2_0_n_n_0_2_1256_wf
def gather_S4x256_S16x6145x1_S16x6145x256_2_0_n_n_0_2_1256 : GatherDims S4x256 S16x6145x1 S16x6145x256 where
  offsetDims := [2]
  collapsedSliceDims := [0]
  operandBatchingDims := []
  startIndicesBatchingDims := []
  startIndexMap := [0]
  indexVectorDim := 2
  sliceSizes := ![1, 256]
  wf := gather_S4x256_S16x6145x1_S16x6145x256_2_0_n_n_0_2_1256_wf
def gather_S1000x256_S16x6145x1_S16x6145x256_2_0_n_n_0_2_1256 : GatherDims S1000x256 S16x6145x1 S16x6145x256 where
  offsetDims := [2]
  collapsedSliceDims := [0]
  operandBatchingDims := []
  startIndicesBatchingDims := []
  startIndexMap := [0]
  indexVectorDim := 2
  sliceSizes := ![1, 256]
  wf := gather_S1000x256_S16x6145x1_S16x6145x256_2_0_n_n_0_2_1256_wf

class Facts : Prop extends Facts₀ where

variable [Facts]
-- ==== Proof.Spec.lean ====
/-
  What the face encoder's embedding computes, as one function of the six argument arrays.

  Three arrays of integer tokens `[16, 6145]` (a value, a coordinate type and a position per token) index three
  tables of 256-wide rows; a token's embedding is the sum of its three rows times 16, and vertex `k` of batch row
  `b` is the sum of the embeddings of its three tokens `3k`, `3k + 1`, `3k + 2` (the last token, 6144, belongs to
  no vertex). The sum starts from the word `0.0` and the scale is the word `16.0`; both are kept as words.
-/
import Idealize.ShloMosaic.Lib.ValueIdx

noncomputable section

namespace Cert.Embed

open Idealize.ShloMosaic Idealize.ShloMosaic.ValueIdx

/-- The scale `16.0 = sqrt 256`, as the extended real its word denotes. -/
abbrev scaleWord : EReal := Ideal.ofBits .f32 0x41800000#32
/-- The sum's initial value `0.0`, as the extended real its word denotes. -/
abbrev zeroWord : EReal := Ideal.ofBits .f32 0x00000000#32

/-- Row `tok` of a table of `N` rows, at column `d`. (A word past the table reads the last row; inside the
    domain no token is one.) -/
def row {N : Nat} (hN : 0 < N) (T : (⟨2, ![N, 256]⟩ : Shape).Idx → EReal) (tok : BitVec 32) (d : Fin 256) : EReal :=
  T (ix2 (⟨min tok.toNat (N - 1), by omega⟩ : Fin N) d)

/-- A token inside the table reads its own row. -/
theorem row_eq {N : Nat} (hN : 0 < N) (T : (⟨2, ![N, 256]⟩ : Shape).Idx → EReal) (tok : BitVec 32) (d : Fin 256)
    (h : tok.toNat < N) : row hN T tok d = T (ix2 (⟨tok.toNat, h⟩ : Fin N) d) := by
  unfold row
  congr 2
  exact Fin.ext (by show min tok.toNat (N - 1) = tok.toNat; omega)

/-- Token `j` of vertex `k` sits at position `3k + j` of its batch row. -/
def pos (k : Fin 2048) (j : Fin 3) : Fin 6145 := ⟨3 * k.val + j.val, by omega⟩

/-- The embedding of vertex `(b, k)` at feature `d`. -/
def Gat (tv tc tp : IVec ⟨2, ![16, 6145]⟩ 32) (vt : (⟨2, ![259, 256]⟩ : Shape).Idx → EReal)
    (ct : (⟨2, ![4, 256]⟩ : Shape).Idx → EReal) (pt : (⟨2, ![1000, 256]⟩ : Shape).Idx → EReal)
    (b : Fin 16) (k : Fin 2048) (d : Fin 256) : EReal :=
  zeroWord + ∑ j : Fin 3,
    ((row (by decide) vt (tv (ix2 b (pos k j))) d + row (by decide) ct (tc (ix2 b (pos k j))) d)
      + row (by decide) pt (tp (ix2 b (pos k j))) d) * scaleWord

/-- The whole result `[16, 2048, 256]`. -/
def G (tv tc tp : IVec ⟨2, ![16, 6145]⟩ 32) (vt : (⟨2, ![259, 256]⟩ : Shape).Idx → EReal)
    (ct : (⟨2, ![4, 256]⟩ : Shape).Idx → EReal) (pt : (⟨2, ![1000, 256]⟩ : Shape).Idx → EReal) :
    (⟨3, ![16, 2048, 256]⟩ : Shape).Idx → EReal :=
  fun i => Gat tv tc tp vt ct pt (i 0) (i 1) (i 2)

theorem G_ix3 (tv tc tp : IVec ⟨2, ![16, 6145]⟩ 32) (vt : (⟨2, ![259, 256]⟩ : Shape).Idx → EReal)
    (ct : (⟨2, ![4, 256]⟩ : Shape).Idx → EReal) (pt : (⟨2, ![1000, 256]⟩ : Shape).Idx → EReal)
    (b : Fin 16) (k : Fin 2048) (d : Fin 256) :
    G tv tc tp vt ct pt (ix3 b k d) = Gat tv tc tp vt ct pt b k d := rfl

/-- The domain the two programs agree on: every token names a row of its table, and every table entry is a real
    number. -/
structure InDomain (tv tc tp : IVec ⟨2, ![16, 6145]⟩ 32) (vt : (⟨2, ![259, 256]⟩ : Shape).Idx → EReal)
    (ct : (⟨2, ![4, 256]⟩ : Shape).Idx → EReal) (pt : (⟨2, ![1000, 256]⟩ : Shape).Idx → EReal) : Prop where
  tv_lt : ∀ i, (tv i).toNat < 259
  tc_lt : ∀ i, (tc i).toNat < 4
  tp_lt : ∀ i, (tp i).toNat < 1000
  vt_real : ∀ i, ∃ r : ℝ, vt i = (r : EReal)
  ct_real : ∀ i, ∃ r : ℝ, ct i = (r : EReal)
  pt_real : ∀ i, ∃ r : ℝ, pt i = (r : EReal)

end Cert.Embed

end
-- ==== Proof.PreDecode.lean ====
/-
  The precondition, decoded: every table entry is a real number and every token names a row of its table.

  The precondition is one bit: the conjunction of six `all`s. Three say `|x| < +inf` of every entry of a table (an
  extended real with that property is a real number); three say `0 ≤ t` and `t < N` (signed) of every token of an
  array, which for `N` below 2³¹ is `t.toNat < N`.
-/
import proofs.«404823_j68453188763948_3_alg».proof.Pre_finite_inputs
import proofs.«404823_j68453188763948_3_alg».proof.Proof.Spec
import Idealize.ShloMosaic.Lib.ReduceAll
import Idealize.ShloMosaic.Lib.StableHlo.Predicate

noncomputable section

namespace Cert.Embed

open Idealize.ShloMosaic Idealize.ShloMosaic.ValueIdx Cert.Pre_finite_inputs

/-- The scalar shape has exactly one index. -/
instance subsingleton_scalar_idx : Subsingleton S_.Idx := ⟨fun a b => funext fun d => d.elim0⟩

/-- The word `0x7F800000` denotes `+∞`. -/
theorem inf_word : Ideal.ofBits .f32 0x7F800000#32 = (⊤ : EReal) := by
  simp [Ideal.ofBits, Ideal.ieee]

/-- An extended real whose absolute value `max x (-x)` is strictly below `+∞` is a real number:
    `⊤` fails because `max ⊤ ⊥ = ⊤`, and `⊥` fails because `max ⊥ ⊤ = ⊤`. -/
theorem real_of_abs_lt (x : EReal)
    (h : Ideal.cmp .olt (max x (-x)) (Ideal.ofBits .f32 0x7F800000#32) = 1#1) : ∃ r : ℝ, x = (r : EReal) := by
  rw [inf_word] at h
  have hlt : max x (-x) < ⊤ := by
    by_contra hc
    simp [Ideal.cmp, hc] at h
  induction x using EReal.rec with
  | bot => simp at hlt
  | coe r => exact ⟨r, rfl⟩
  | top => simp at hlt

/-- A word that tests `0 ≤ t` and `t < N` as a signed number, with `N` below `2³¹`, is below `N` as an
    unsigned one: a nonnegative signed reading is the unsigned reading. -/
theorem toNat_lt_of_signed (t : BitVec 32) (N : Nat) (hN : N < 2 ^ 31)
    (h : IntOp.andi (IntOp.cmpi .sge t 0#32) (IntOp.cmpi .slt t (BitVec.ofNat 32 N)) = 1#1) : t.toNat < N := by
  obtain ⟨h0, h1⟩ := IntOp.andi_eq_one.1 h
  rw [IntOp.cmpi_sge] at h0
  rw [IntOp.cmpi_slt] at h1
  have hz : (0#32 : BitVec 32).toInt = 0 := by decide
  have hn : (BitVec.ofNat 32 N).toInt = (N : Int) := by
    have hm : (BitVec.ofNat 32 N).toNat = N := by rw [BitVec.toNat_ofNat]; omega
    rw [BitVec.toInt_eq_toNat_of_lt (by omega), hm]
  rw [hz] at h0
  rw [hn] at h1
  have ht : 2 * t.toNat < 2 ^ 32 := BitVec.toInt_pos_iff.1 h0
  rw [BitVec.toInt_eq_toNat_of_lt ht] at h1
  omega

/-- A table whose `all (|x| < +inf)` bit is set has only real entries. -/
theorem table_real [Facts] {s : Shape} {axes : List (Fin s.rank)}
    (hb : S_.BroadcastsInDim s (![] : Fin 0 → Fin s.rank)) (hr : s.ReducesTo axes S_) (T : FVec Ideal s .f32)
    (h : Host.reduce IntOp.andi
        (cmpf .olt (Host.absf T) (broadcastInDim s ![] hb (constant S_ .f32 0x7F800000#32)))
        (constantI S_ 1 1#1) hr Facts.h_S_ ix0 = 1#1)
    (i : s.Idx) : ∃ r : ℝ, T i = (r : EReal) :=
  real_of_abs_lt (T i) (Host.reduce_andi_all _ _ hr Facts.h_S_ ix0 h i)

/-- A token array whose `all (0 ≤ t ∧ t < N)` bit is set has every token below `N`. -/
theorem tokens_lt [Facts] (t : IVec S16x6145 32) (N : Nat) (hN : N < 2 ^ 31)
    (h : Host.reduce IntOp.andi
        (andi (cmpi .sge t (broadcastInDim S16x6145 ![] Facts.bcast_S_S16x6145 (constantI S_ 32 0#32)))
          (cmpi .slt t (broadcastInDim S16x6145 ![] Facts.bcast_S_S16x6145 (constantI S_ 32 (BitVec.ofNat 32 N)))))
        (constantI S_ 1 1#1) Facts.reducesTo_S16x6145_S_d0_1 Facts.h_S_ ix0 = 1#1)
    (i : S16x6145.Idx) : (t i).toNat < N :=
  toNat_lt_of_signed (t i) N hN (Host.reduce_andi_all _ _ Facts.reducesTo_S16x6145_S_d0_1 Facts.h_S_ ix0 h i)

/-- Where the precondition's bit is set, the six arrays are in the domain. -/
theorem inDomain_of_pre [Cert.Pre_finite_inputs.Facts] (tv tc tp : IVec S16x6145 32) (vt : FVec Ideal S259x256 .f32)
    (ct : FVec Ideal S4x256 .f32) (pt : FVec Ideal S1000x256 .f32)
    (h : Cert.Pre_finite_inputs.fn (F := Ideal) tv tc tp vt ct pt = (fun _ => 1#1)) :
    InDomain tv tc tp vt ct pt := by
  have h0 := congrFun h ValueIdx.ix0
  dsimp only [fn, fn_part1, fn_part2] at h0
  obtain ⟨h5, hp⟩ := IntOp.andi_eq_one.1 h0
  obtain ⟨h4, hc⟩ := IntOp.andi_eq_one.1 h5
  obtain ⟨h3, hv⟩ := IntOp.andi_eq_one.1 h4
  obtain ⟨h2, hpt⟩ := IntOp.andi_eq_one.1 h3
  obtain ⟨hvt, hct⟩ := IntOp.andi_eq_one.1 h2
  exact
    { tv_lt := tokens_lt tv 259 (by norm_num) hv
      tc_lt := tokens_lt tc 4 (by norm_num) hc
      tp_lt := tokens_lt tp 1000 (by norm_num) hp
      vt_real := table_real _ _ vt hvt
      ct_real := table_real _ _ ct hct
      pt_real := table_real _ _ pt hpt }

end Cert.Embed

end
-- ==== Proof.LibGatherRows3.lean ====
/-
  A gather of whole rows of a table, read at an index.

  A table of shape [N, C] is gathered at an array of start indices [A, B, 1]: offset axis 2, collapsed slice axis 0,
  start index map [0], index vector axis 2, slice sizes [1, C]. The result has shape [A, B, C], and its element
  (a, p, c) is the table's element in column c of the row that start index (a, p, 0) names, the start index read as a
  signed integer and kept inside [0, N - 1]. For a start index that is a small natural number already inside the table
  the row is the index's own value; and the usual wrap of a negative index by the table's height, a select between
  the index plus N and the index on the index's sign, leaves such an index as it is.
-/
import Idealize.ShloMosaic.Lib.ValueIdx
import Idealize.ShloMosaic.Lib.StableHlo.Predicate

noncomputable section

namespace Cert.Lib.GatherRows3

open Idealize.ShloMosaic Idealize.ShloMosaic.ValueIdx

variable {α : Type}

/-- The dimension numbers of a gather of whole rows: operand [N, C], start indices [A, B, 1], result [A, B, C]. -/
abbrev rowsDims (N A B C : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- The gather of rows read at (a, p, c): the table at column c of the row the start index (a, p, 0) names, read
    signed and kept inside [0, N - 1]. -/
theorem gather_rows_apply {N A B C w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (p : Fin B) (c : Fin C) :
    Host.gather (rowsDims N A B C wf) x idx (ix3 a p c)
      = x (ix2 (⟨min (idx (ix3 a p (0 : Fin 1))).toInt.toNat (N - 1), by omega⟩ : Fin N) c) := by
  unfold Host.gather
  congr 1
  funext e
  refine Fin.ext ?_
  match e with
  | ⟨0, _⟩ =>
    show (rowsDims N A B C wf).start (ix3 a p c) idx 0 + (rowsDims N A B C wf).batchCoord (ix3 a p c) 0
      + (rowsDims N A B C wf).offCoord (ix3 a p c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N A B C wf).startIndexMap from List.mem_singleton.mpr rfl)]
    have hsi : (rowsDims N A B C wf).siIdx (ix3 a p c) ⟨List.idxOf (0 : Fin 2) (rowsDims N A B C wf).startIndexMap,
        List.idxOf_lt_length_iff.2 (List.mem_singleton.mpr rfl)⟩ = ix3 a p (0 : Fin 1) := by
      funext b; refine Fin.ext ?_
      match b with
      | ⟨0, _⟩ => rfl
      | ⟨1, _⟩ => rfl
      | ⟨2, _⟩ => rfl
    rw [hsi]
    rfl
  | ⟨1, _⟩ =>
    show (rowsDims N A B C wf).start (ix3 a p c) idx 1 + (rowsDims N A B C wf).batchCoord (ix3 a p c) 1
      + (rowsDims N A B C wf).offCoord (ix3 a p c) 1 = c.val
    rw [GatherDims.batchCoord_eq_zero _ _ _ List.not_mem_nil]
    unfold GatherDims.start
    rw [dif_neg (show (1 : Fin 2) ∉ (rowsDims N A B C wf).startIndexMap from
      fun h => absurd (List.mem_singleton.mp h) (by decide : ¬ ((1 : Fin 2) = 0)))]
    simp only [Nat.zero_add, Nat.add_zero]
    rfl

/-- A word below 2^31 is not negative, so the wrap by the table's height (the word plus n where the word is negative,
    else the word) leaves it as it is. -/
theorem wrap_eq (t n : BitVec 32) (ht : t.toNat < 2 ^ 31) :
    Scalar.select (IntOp.cmpi .slt t 0#32) (IntOp.addi t n) t = t := by
  unfold Scalar.select
  refine if_neg fun h => ?_
  exact Nat.not_lt_zero _ ((StableHlo.Predicate.slt_iff_toNat ht (by decide)).mp h)

/-- A word that names a row of a table of N rows, N below 2^31, read signed and kept inside [0, N - 1], is its own
    value. -/
theorem clamp_eq (t : BitVec 32) (N : Nat) (hN : N ≤ 2 ^ 31) (ht : t.toNat < N) :
    min t.toInt.toNat (N - 1) = t.toNat := by
  rw [StableHlo.Predicate.toInt_eq_toNat_of_lt (by omega), Int.toNat_natCast]
  omega

end Cert.Lib.GatherRows3

end
-- ==== Proof.RefValue.lean ====
/-
  The reference's result is the embedding `G`.

  The reference wraps a negative token by the table's height, gathers the token's row (the gather keeps a start index
  inside the table), adds the three rows, scales, drops token 6144, and sums each vertex's three tokens. Inside the
  domain no token is negative or past its table, so the wrap and the clamp do nothing and each gather reads the
  token's own row.
-/
import proofs.«404823_j68453188763948_3_alg».proof.Proof.Gen.ReferenceIdeal.Read
import proofs.«404823_j68453188763948_3_alg».proof.Proof.Spec
import proofs.«404823_j68453188763948_3_alg».proof.Proof.LibGatherRows3

noncomputable section

namespace Cert.Embed

open Idealize.ShloMosaic Idealize.ShloMosaic.ValueIdx Cert.ReferenceIdeal Cert.Lib.GatherRows3

/-- Token `j` of vertex `k`, followed back through the sum's index, the reshape and the slice, is position
    `3k + j` of the unsliced array: the flat offset `((b · 2048 + k) · 3 + j) · 256 + d` splits again as
    `(b, 3k + j, d)` over `[16, 6144, 256]`. -/
theorem idx_back (b : Fin 16) (k : Fin 2048) (d : Fin 256) (j : Fin 3) :
    Read.idx_main_v25 (Read.idx_main_v26 (Read.idx_main_v27 (ix3 b k d) j)) = ix3 b (pos k j) d := by
  have hb := b.isLt
  have hk := k.isLt
  have hd := d.isLt
  have hj := j.isLt
  funext a
  refine Fin.ext ?_
  match a with
  | ⟨0, _⟩ =>
    show (((b.val * 2048 + k.val) * 3 + j.val) * 256 + d.val) / 1572864 = b.val
    omega
  | ⟨1, _⟩ =>
    show (((b.val * 2048 + k.val) * 3 + j.val) * 256 + d.val) / 256 % 6144 = 3 * k.val + j.val
    omega
  | ⟨2, _⟩ =>
    show (((b.val * 2048 + k.val) * 3 + j.val) * 256 + d.val) % 256 = d.val
    omega

/-- The start index `(b, p, 0)` of the gathers is read from token `(b, p)`. -/
theorem idx_start (b : Fin 16) (p : Fin 6145) : Read.idx_main_v5 (ix3 b p (0 : Fin 1)) = ix2 b p := by
  funext a
  match a with
  | ⟨0, _⟩ => rfl
  | ⟨1, _⟩ => rfl

/-- The same for the type tokens' broadcast. -/
theorem idx_start12 (b : Fin 16) (p : Fin 6145) : Read.idx_main_v12 (ix3 b p (0 : Fin 1)) = ix2 b p := by
  funext a
  match a with
  | ⟨0, _⟩ => rfl
  | ⟨1, _⟩ => rfl

/-- The same for the position tokens' broadcast. -/
theorem idx_start20 (b : Fin 16) (p : Fin 6145) : Read.idx_main_v20 (ix3 b p (0 : Fin 1)) = ix2 b p := by
  funext a
  match a with
  | ⟨0, _⟩ => rfl
  | ⟨1, _⟩ => rfl

/-- The value table's start word at `(b, p, 0)` is the value token itself: it is not negative, so it is not wrapped. -/
theorem start_v5 [Cert.ReferenceIdeal.Facts] (x0 : IVec S16x6145 32) (b : Fin 16) (p : Fin 6145) (h : (x0 (ix2 b p)).toNat < 2 ^ 31) :
    Read.val_main_v5 (F := Ideal) x0 (ix3 b p (0 : Fin 1)) = x0 (ix2 b p) := by
  rw [Read.val_main_v5_apply, idx_start, Read.val_main_v4_apply, Read.val_main_v1_apply, Read.val_main_v3_apply,
    Read.val_main_v0_apply, Read.val_main_c_apply]
  exact wrap_eq _ _ h

/-- The type table's start word at `(b, p, 0)` is the type token itself. -/
theorem start_v12 [Cert.ReferenceIdeal.Facts] (x1 : IVec S16x6145 32) (b : Fin 16) (p : Fin 6145) (h : (x1 (ix2 b p)).toNat < 2 ^ 31) :
    Read.val_main_v12 (F := Ideal) x1 (ix3 b p (0 : Fin 1)) = x1 (ix2 b p) := by
  rw [Read.val_main_v12_apply, idx_start12, Read.val_main_v11_apply, Read.val_main_v8_apply, Read.val_main_v10_apply,
    Read.val_main_v7_apply, Read.val_main_c_1_apply]
  exact wrap_eq _ _ h

/-- The position table's start word at `(b, p, 0)` is the position token itself. -/
theorem start_v20 [Cert.ReferenceIdeal.Facts] (x2 : IVec S16x6145 32) (b : Fin 16) (p : Fin 6145) (h : (x2 (ix2 b p)).toNat < 2 ^ 31) :
    Read.val_main_v20 (F := Ideal) x2 (ix3 b p (0 : Fin 1)) = x2 (ix2 b p) := by
  rw [Read.val_main_v20_apply, idx_start20, Read.val_main_v19_apply, Read.val_main_v16_apply, Read.val_main_v18_apply,
    Read.val_main_v15_apply, Read.val_main_c_3_apply]
  exact wrap_eq _ _ h

/-- The first gather at `(b, p, d)` reads the value token's own row. -/
theorem gather_v6 [Cert.ReferenceIdeal.Facts] (x0 : IVec S16x6145 32) (x3 : FVec Ideal S259x256 .f32) (b : Fin 16) (p : Fin 6145) (d : Fin 256)
    (h : (x0 (ix2 b p)).toNat < 259) :
    Read.val_main_v6 (F := Ideal) x0 x3 (ix3 b p d) = row (by decide) x3 (x0 (ix2 b p)) d := by
  unfold Read.val_main_v6
  refine (gather_rows_apply (N := 259) (A := 16) (B := 6145) (C := 256) (by decide)
    Facts₀.gather_S259x256_S16x6145x1_S16x6145x256_2_0_n_n_0_2_1256_wf x3 (Read.val_main_v5 (F := Ideal) x0) b p d).trans ?_
  rw [row_eq (by decide) x3 _ d h]
  refine congrArg x3 (congrArg (fun r => ix2 r d) (Fin.ext ?_))
  show min (Read.val_main_v5 (F := Ideal) x0 (ix3 b p (0 : Fin 1))).toInt.toNat (259 - 1) = (x0 (ix2 b p)).toNat
  rw [start_v5 x0 b p (by omega)]
  exact clamp_eq _ 259 (by decide) h

/-- The second gather at `(b, p, d)` reads the type token's own row. -/
theorem gather_v13 [Cert.ReferenceIdeal.Facts] (x1 : IVec S16x6145 32) (x4 : FVec Ideal S4x256 .f32) (b : Fin 16) (p : Fin 6145) (d : Fin 256)
    (h : (x1 (ix2 b p)).toNat < 4) :
    Read.val_main_v13 (F := Ideal) x1 x4 (ix3 b p d) = row (by decide) x4 (x1 (ix2 b p)) d := by
  unfold Read.val_main_v13
  refine (gather_rows_apply (N := 4) (A := 16) (B := 6145) (C := 256) (by decide)
    Facts₀.gather_S4x256_S16x6145x1_S16x6145x256_2_0_n_n_0_2_1256_wf x4 (Read.val_main_v12 (F := Ideal) x1) b p d).trans ?_
  rw [row_eq (by decide) x4 _ d h]
  refine congrArg x4 (congrArg (fun r => ix2 r d) (Fin.ext ?_))
  show min (Read.val_main_v12 (F := Ideal) x1 (ix3 b p (0 : Fin 1))).toInt.toNat (4 - 1) = (x1 (ix2 b p)).toNat
  rw [start_v12 x1 b p (by omega)]
  exact clamp_eq _ 4 (by decide) h

/-- The third gather at `(b, p, d)` reads the position token's own row. -/
theorem gather_v21 [Cert.ReferenceIdeal.Facts] (x2 : IVec S16x6145 32) (x5 : FVec Ideal S1000x256 .f32) (b : Fin 16) (p : Fin 6145) (d : Fin 256)
    (h : (x2 (ix2 b p)).toNat < 1000) :
    Read.val_main_v21 (F := Ideal) x2 x5 (ix3 b p d) = row (by decide) x5 (x2 (ix2 b p)) d := by
  unfold Read.val_main_v21
  refine (gather_rows_apply (N := 1000) (A := 16) (B := 6145) (C := 256) (by decide)
    Facts₀.gather_S1000x256_S16x6145x1_S16x6145x256_2_0_n_n_0_2_1256_wf x5 (Read.val_main_v20 (F := Ideal) x2) b p d).trans ?_
  rw [row_eq (by decide) x5 _ d h]
  refine congrArg x5 (congrArg (fun r => ix2 r d) (Fin.ext ?_))
  show min (Read.val_main_v20 (F := Ideal) x2 (ix3 b p (0 : Fin 1))).toInt.toNat (1000 - 1) = (x2 (ix2 b p)).toNat
  rw [start_v20 x2 b p (by omega)]
  exact clamp_eq _ 1000 (by decide) h

/-- The reference's last stage, as a function of the six arguments, is `G` inside the domain. -/
theorem ref_is_G [Cert.ReferenceIdeal.Facts] (x0 x1 x2 : IVec S16x6145 32) (x3 : FVec Ideal S259x256 .f32)
    (x4 : FVec Ideal S4x256 .f32) (x5 : FVec Ideal S1000x256 .f32) (hd : InDomain x0 x1 x2 x3 x4 x5) :
    Cert.ReferenceIdeal.Read.val_main_v27 (F := Ideal) x0 x1 x2 x3 x4 x5 = G x0 x1 x2 x3 x4 x5 := by
  funext i
  obtain ⟨b, k, d, rfl⟩ : ∃ (b : Fin 16) (k : Fin 2048) (d : Fin 256), i = ix3 b k d := ⟨i 0, i 1, i 2, eq_ix3 i⟩
  rw [G_ix3, Read.val_main_v27_apply]
  unfold Gat
  refine congrArg₂ (· + ·) rfl (Finset.sum_congr rfl fun j _ => ?_)
  rw [Read.val_main_v26_apply, Read.val_main_v25_apply, idx_back b k d j, Read.val_main_v24_apply,
    Read.val_main_v22_apply, Read.val_main_v14_apply, Read.val_main_v23_apply, Read.val_main_cst_apply,
    gather_v6 x0 x3 b (pos k j) d (hd.tv_lt _), gather_v13 x1 x4 b (pos k j) d (hd.tc_lt _),
    gather_v21 x2 x5 b (pos k j) d (hd.tp_lt _)]
  rfl

end Cert.Embed

end
-- ==== Proof.PointAlgebra.lean ====
/-
  One output element, as arithmetic on the extended reals.

  The kernel never indexes a table. It compares a token with every row number, turns the bit into `0.0` or `1.0`,
  adds the three tokens' indicator rows, and multiplies the sum with the table: a sum over ALL rows in which only
  the tokens' own rows survive. The value and coordinate tables are stacked into one of 263 rows, and each table
  is used twice, once as itself and once as its rounding residue `T - T`, which is zero on real entries. This
  module shows that this arithmetic is the plain sum of the three tokens' rows, scaled.
-/
import proofs.«404823_j68453188763948_3_alg».proof.Proof.Spec
import Idealize.ShloMosaic.Lib.StableHlo.Predicate
import Idealize.ShloMosaic.PureOps.Ideal.Laws
import Mathlib.Data.EReal.Basic
import Mathlib.Data.EReal.Operations
import Mathlib.Algebra.BigOperators.Fin

noncomputable section

namespace Cert.Embed

open Idealize.ShloMosaic

/-- The indicator of "token `t` is row `v`" as the kernel computes it: the compare's bit, widened to 32 bits, read as a
    signed integer and then as a real. -/
def oh (t : BitVec 32) (v : Nat) : EReal :=
  ((((IntOp.cmpi .eq t (BitVec.ofNat 32 v)).setWidth 32).toInt : ℝ) : EReal)

/-- The three tokens' indicators of row `v`, added in the kernel's order. -/
def acc3 (t : Fin 3 → BitVec 32) (v : Nat) : EReal := (oh (t 0) v + oh (t 1) v) + oh (t 2) v

/-! ## The indicator -/

/-- A 32-bit word is the word of a row number below `2 ^ 32` exactly when its value is that number. -/
theorem eq_ofNat_iff (t : BitVec 32) (v : Nat) (hv : v < 2 ^ 32) : t = BitVec.ofNat 32 v ↔ t.toNat = v := by
  constructor
  · intro h
    rw [h, BitVec.toNat_ofNat]
    exact Nat.mod_eq_of_lt hv
  · intro h
    apply BitVec.eq_of_toNat_eq
    rw [BitVec.toNat_ofNat, Nat.mod_eq_of_lt hv]
    exact h

/-- The indicator is `1` on the token's own row and `0` on every other. -/
theorem oh_eq (t : BitVec 32) (v : Nat) (hv : v < 2 ^ 32) : oh t v = if t.toNat = v then 1 else 0 := by
  unfold oh
  by_cases h : t.toNat = v
  · have h1 : IntOp.cmpi .eq t (BitVec.ofNat 32 v) = 1#1 :=
      StableHlo.Predicate.cmpi_eq_iff.mpr ((eq_ofNat_iff t v hv).mpr h)
    have e1 : ((1#1 : BitVec 1).setWidth 32).toInt = 1 := by decide
    rw [h1, if_pos h, e1]
    norm_num
  · have h0 : IntOp.cmpi .eq t (BitVec.ofNat 32 v) = 0#1 :=
      ValueIdx.eq_zero_of_ne_one (fun h1 => h ((eq_ofNat_iff t v hv).mp (StableHlo.Predicate.cmpi_eq_iff.mp h1)))
    have e0 : ((0#1 : BitVec 1).setWidth 32).toInt = 0 := by decide
    rw [h0, if_neg h, e0]
    norm_num

theorem oh_nonneg (t : BitVec 32) (v : Nat) (hv : v < 2 ^ 32) : 0 ≤ oh t v := by
  rw [oh_eq t v hv]
  split_ifs
  · exact zero_le_one
  · exact le_refl 0

/-- Against a table of `N` rows, one token's indicator row picks the token's own row. -/
theorem onehot_sum {N : Nat} (hN : N ≤ 2 ^ 32) (T : Fin N → EReal) (t : BitVec 32) (h : t.toNat < N) :
    ∑ v : Fin N, oh t v.val * T v = T ⟨t.toNat, h⟩ := by
  rw [Finset.sum_eq_single (⟨t.toNat, h⟩ : Fin N)]
  · rw [oh_eq t _ (by omega), if_pos rfl, one_mul]
  · intro v _ hne
    have hv : v.val < 2 ^ 32 := by omega
    rw [oh_eq t _ hv, if_neg, zero_mul]
    intro h'
    exact hne (Fin.ext h'.symm)
  · intro h'
    exact absurd (Finset.mem_univ _) h'

/-- The three tokens' indicator rows, added, pick the three tokens' rows, added. -/
theorem acc3_sum {N : Nat} (hN : N ≤ 2 ^ 32) (T : Fin N → EReal) (t : Fin 3 → BitVec 32)
    (h : ∀ j, (t j).toNat < N) :
    ∑ v : Fin N, acc3 t v.val * T v
      = (T ⟨(t 0).toNat, h 0⟩ + T ⟨(t 1).toNat, h 1⟩) + T ⟨(t 2).toNat, h 2⟩ := by
  have hd : ∀ v : Fin N, acc3 t v.val * T v
      = (oh (t 0) v.val * T v + oh (t 1) v.val * T v) + oh (t 2) v.val * T v := by
    intro v
    have hv : v.val < 2 ^ 32 := by omega
    unfold acc3
    rw [EReal.right_distrib_of_nonneg (add_nonneg (oh_nonneg _ _ hv) (oh_nonneg _ _ hv)) (oh_nonneg _ _ hv),
      EReal.right_distrib_of_nonneg (oh_nonneg _ _ hv) (oh_nonneg _ _ hv)]
  simp only [hd, Finset.sum_add_distrib, onehot_sum hN T _ (h _)]

/-! ## The stacked table -/

/-- A sum over the 263 stacked rows is the sum over the 259 value rows plus the sum over the 4 coordinate rows. -/
theorem sum_split (f : Fin 263 → EReal) :
    ∑ q, f q = ∑ v : Fin 259, f ⟨v.val, by omega⟩ + ∑ c : Fin 4, f ⟨259 + c.val, by omega⟩ := by
  have h := Fin.sum_univ_add (a := 259) (b := 4) f
  exact h

/-! ## The residue -/

/-- A real entry minus itself is zero. -/
theorem self_sub_real (x : EReal) (hx : ∃ r : ℝ, x = (r : EReal)) : x - x = 0 := by
  obtain ⟨r, rfl⟩ := hx
  rw [← EReal.coe_sub, sub_self, EReal.coe_zero]

/-! ## The two words -/

theorem zeroWord_eq : zeroWord = 0 := Ideal.ofBits_zero_f32

theorem scaleWord_eq : scaleWord = ((16 : ℝ) : EReal) := by
  show Ideal.ofBits .f32 0x41800000#32 = _
  simp [Ideal.ofBits, Ideal.ieee, -EReal.coe_mul]
  norm_num

/-- ONE ELEMENT. `A` is the stacked indicator row (value rows then coordinate rows), `H` the stacked table, `L` its
    residue; `Pa`, `PH`, `PL` the same for positions. With every token inside its table and every table entry real,
    the four contractions, added and scaled, are the three tokens' rows added and scaled. -/
theorem point_eq
    (VT : Fin 259 → EReal) (CT : Fin 4 → EReal) (PT : Fin 1000 → EReal)
    (hVT : ∀ v, ∃ r : ℝ, VT v = (r : EReal)) (hCT : ∀ v, ∃ r : ℝ, CT v = (r : EReal)) (hPT : ∀ v, ∃ r : ℝ, PT v = (r : EReal))
    (tv tc tp : Fin 3 → BitVec 32)
    (hv : ∀ j, (tv j).toNat < 259) (hc : ∀ j, (tc j).toNat < 4) (hp : ∀ j, (tp j).toNat < 1000)
    (A H L : Fin 263 → EReal) (Pa PH PL : Fin 1000 → EReal)
    (hA : ∀ q : Fin 263, A q = if q.val < 259 then acc3 tv q.val else acc3 tc (q.val - 259))
    (hH : ∀ q : Fin 263, H q = if h : q.val < 259 then VT ⟨q.val, h⟩ else CT ⟨q.val - 259, by omega⟩)
    (hL : ∀ q, L q = H q - H q)
    (hPa : ∀ q : Fin 1000, Pa q = acc3 tp q.val)
    (hPH : ∀ q, PH q = PT q) (hPL : ∀ q, PL q = PT q - PT q) :
    (((∑ q, A q * H q) + (∑ q, A q * L q)) + ((∑ q, Pa q * PH q) + (∑ q, Pa q * PL q))) * scaleWord
      = zeroWord + ∑ j : Fin 3,
          ((VT ⟨(tv j).toNat, hv j⟩ + CT ⟨(tc j).toNat, hc j⟩) + PT ⟨(tp j).toNat, hp j⟩) * scaleWord := by
  -- every entry of the stacked table is real, so both residues vanish
  have hHr : ∀ q, ∃ r : ℝ, H q = (r : EReal) := by
    intro q
    rw [hH q]
    split_ifs with h
    · exact hVT _
    · exact hCT _
  have hL0 : ∀ q, L q = 0 := fun q => by rw [hL q]; exact self_sub_real _ (hHr q)
  have hPL0 : ∀ q, PL q = 0 := fun q => by rw [hPL q]; exact self_sub_real _ (hPT q)
  have s2 : ∑ q, A q * L q = 0 := Finset.sum_eq_zero (fun q _ => by rw [hL0 q, mul_zero])
  have s4 : ∑ q, Pa q * PL q = 0 := Finset.sum_eq_zero (fun q _ => by rw [hPL0 q, mul_zero])
  -- the position contraction picks the three position rows
  have s3 : ∑ q, Pa q * PH q
      = (PT ⟨(tp 0).toNat, hp 0⟩ + PT ⟨(tp 1).toNat, hp 1⟩) + PT ⟨(tp 2).toNat, hp 2⟩ := by
    rw [← acc3_sum (by norm_num) PT tp hp]
    exact Finset.sum_congr rfl (fun q _ => by rw [hPa q, hPH q])
  -- the stacked contraction picks the three value rows and the three coordinate rows
  have s1 : ∑ q, A q * H q
      = ((VT ⟨(tv 0).toNat, hv 0⟩ + VT ⟨(tv 1).toNat, hv 1⟩) + VT ⟨(tv 2).toNat, hv 2⟩)
        + ((CT ⟨(tc 0).toNat, hc 0⟩ + CT ⟨(tc 1).toNat, hc 1⟩) + CT ⟨(tc 2).toNat, hc 2⟩) := by
    rw [sum_split, ← acc3_sum (by norm_num) VT tv hv, ← acc3_sum (by norm_num) CT tc hc]
    congr 1
    · refine Finset.sum_congr rfl (fun v _ => ?_)
      have hlt : (⟨v.val, by omega⟩ : Fin 263).val < 259 := v.isLt
      rw [hA, hH, if_pos hlt, dif_pos hlt]
    · refine Finset.sum_congr rfl (fun c _ => ?_)
      have hn : ¬ ((⟨259 + c.val, by omega⟩ : Fin 263).val < 259) := by
        show ¬ (259 + c.val < 259)
        omega
      have e : (⟨259 + c.val, by omega⟩ : Fin 263).val - 259 = c.val := by
        show 259 + c.val - 259 = c.val
        omega
      rw [hA, hH, if_neg hn, dif_neg hn]
      congr 1
      · rw [e]
      · exact congrArg CT (Fin.ext e)
  rw [s1, s2, s3, s4, zeroWord_eq, scaleWord_eq, Fin.sum_univ_three, add_zero, add_zero, zero_add]
  -- nine real numbers: the identity is one of the real field
  obtain ⟨v0, e0⟩ := hVT ⟨(tv 0).toNat, hv 0⟩
  obtain ⟨v1, e1⟩ := hVT ⟨(tv 1).toNat, hv 1⟩
  obtain ⟨v2, e2⟩ := hVT ⟨(tv 2).toNat, hv 2⟩
  obtain ⟨c0, f0⟩ := hCT ⟨(tc 0).toNat, hc 0⟩
  obtain ⟨c1, f1⟩ := hCT ⟨(tc 1).toNat, hc 1⟩
  obtain ⟨c2, f2⟩ := hCT ⟨(tc 2).toNat, hc 2⟩
  obtain ⟨p0, g0⟩ := hPT ⟨(tp 0).toNat, hp 0⟩
  obtain ⟨p1, g1⟩ := hPT ⟨(tp 1).toNat, hp 1⟩
  obtain ⟨p2, g2⟩ := hPT ⟨(tp 2).toNat, hp 2⟩
  rw [e0, e1, e2, f0, f1, f2, g0, g1, g2]
  simp only [← EReal.coe_add, ← EReal.coe_mul]
  congr 1
  ring

end Cert.Embed

end
-- ==== Proof.KernelPoint.lean ====
/-
  One element of the kernel's output block, read off the body's arithmetic.

  The body builds, for each of the three token blocks `[8, 3, 256]`, the sum of three indicator planes
  `[8, 256, V]` (plane `j` compares token `(b, j, r)` with the row number `v`), stacks the value and coordinate
  planes into `[8, 256, 263]`, flattens the first two axes, and contracts with each table half; the position planes
  likewise. Read at `(b, r, d)`, that is four sums over the rows of a table, added and scaled.
-/
import proofs.«404823_j68453188763948_3_alg».proof.Proof.Gen.KernelIdeal.Skeleton
import proofs.«404823_j68453188763948_3_alg».proof.Proof.PointAlgebra
import Idealize.ShloMosaic.Lib.Pipeline.Value
import Idealize.ShloMosaic.Lib.ValueIdx
import Idealize.ShloMosaic.PureOps.Ideal.Laws

noncomputable section

namespace Cert.Embed.Kernel

open Idealize.ShloMosaic Idealize.ShloMosaic.ValueIdx Cert.KernelIdeal Cert.KernelIdeal.Gen Cert.Embed

variable [Cert.KernelIdeal.Facts]

/-! ## One indicator plane -/

/-- Plane `off 1` of a token block against the row numbers `0 … V - 1`: the compare's bit as `0.0` / `1.0`. -/
def plane (V : Nat) (hbc : S8x256x1.Broadcasts ⟨3, ![8, 256, V]⟩) (hio : (⟨3, ![8, 256, V]⟩ : Shape).Iotas .tc 32 [2])
    (off : Fin 3 → Nat) (hsl : S8x3x256.Slices off S8x1x256) (x : IVec S8x3x256 32) : FVec Ideal ⟨3, ![8, 256, V]⟩ .bf16 :=
  truncf .bf16 (sitofp .f32 (extui 32 (cmpi .eq
    (broadcastTo ⟨3, ![8, 256, V]⟩ (shapeCast S8x256x1 (shapeCast S8x256 (extractStridedSlice S8x1x256 off x hsl)
      Facts₀.shapeCasts_S8x1x256_S8x256) Facts₀.shapeCasts_S8x256_S8x256x1) hbc)
    (iota .tc ⟨3, ![8, 256, V]⟩ 32 [2] hio)) Facts₀.natLt_1_32)) Facts₀.bitsLt_bf16_f32

/-- At `(b, r, v)` the plane holds the indicator of "token `(b, j, r)` is row `v`". -/
theorem plane_apply (V : Nat) (hbc : S8x256x1.Broadcasts ⟨3, ![8, 256, V]⟩) (hio : (⟨3, ![8, 256, V]⟩ : Shape).Iotas .tc 32 [2])
    (off : Fin 3 → Nat) (hsl : S8x3x256.Slices off S8x1x256) (x : IVec S8x3x256 32) (j : Fin 3)
    (h0 : off 0 = 0) (h1 : off 1 = j.val) (h2 : off 2 = 0) (b : Fin 8) (r : Fin 256) (v : Fin V) :
    plane V hbc hio off hsl x (ix3 b r v) = oh (x (ix3 b j r)) v.val := by
  unfold plane oh
  show (((((IntOp.cmpi .eq _ _ : BitVec 1).setWidth 32).toInt : ℝ)) : EReal) = _
  have e1 : broadcastTo ⟨3, ![8, 256, V]⟩ (shapeCast S8x256x1 (shapeCast S8x256 (extractStridedSlice S8x1x256 off x hsl)
      Facts₀.shapeCasts_S8x1x256_S8x256) Facts₀.shapeCasts_S8x256_S8x256x1) hbc (ix3 b r v) = x (ix3 b j r) := by
    refine (broadcastTo_apply _ hbc (ix3 b r v) (ix3 b r (0 : Fin 1)) (fun a => ?_)).trans ?_
    · match a with
      | ⟨0, _⟩ => show b.val = if (8 : Nat) = 1 then 0 else b.val; rw [if_neg (by decide)]
      | ⟨1, _⟩ => show r.val = if (256 : Nat) = 1 then 0 else r.val; rw [if_neg (by decide)]
      | ⟨2, _⟩ => show (0 : Nat) = if (1 : Nat) = 1 then 0 else v.val; rw [if_pos rfl]
    refine (shapeCast_apply _ Facts₀.shapeCasts_S8x256_S8x256x1 (ix3 b r (0 : Fin 1)) (ix2 b r) ?_).trans ?_
    · rw [Shape.rowMajor_val_two, Shape.rowMajor_val_three]
      show b.val * 256 + r.val = (b.val * 256 + r.val) * 1 + 0
      omega
    refine (shapeCast_apply _ Facts₀.shapeCasts_S8x1x256_S8x256 (ix2 b r) (ix3 b (0 : Fin 1) r) ?_).trans ?_
    · rw [Shape.rowMajor_val_two, Shape.rowMajor_val_three]
      show (b.val * 1 + 0) * 256 + r.val = b.val * 256 + r.val
      omega
    refine extractStridedSlice_apply off x hsl (ix3 b (0 : Fin 1) r) (ix3 b j r) (fun a => ?_)
    match a with
    | ⟨0, _⟩ => show b.val = off 0 + b.val; rw [h0]; omega
    | ⟨1, _⟩ => show j.val = off 1 + 0; rw [h1]; omega
    | ⟨2, _⟩ => show r.val = off 2 + r.val; rw [h2]; omega
  have e2 : iota .tc ⟨3, ![8, 256, V]⟩ 32 [2] hio (ix3 b r v) = BitVec.ofNat 32 v.val :=
    iota_single_apply .tc ⟨3, ![8, 256, V]⟩ 32 2 hio (ix3 b r v)
  show (((((IntOp.cmpi .eq (broadcastTo ⟨3, ![8, 256, V]⟩ _ hbc (ix3 b r v)) (iota .tc ⟨3, ![8, 256, V]⟩ 32 [2] hio (ix3 b r v))
    : BitVec 1).setWidth 32).toInt : ℝ)) : EReal) = _
  rw [e1, e2]

/-! ## The three planes of a token block, added -/

/-- The indicator planes of tokens `(b, 0, r)`, `(b, 1, r)`, `(b, 2, r)`, added in the body's order. -/
def planes3 (V : Nat) (hbc : S8x256x1.Broadcasts ⟨3, ![8, 256, V]⟩) (hio : (⟨3, ![8, 256, V]⟩ : Shape).Iotas .tc 32 [2])
    (x : IVec S8x3x256 32) : FVec Ideal ⟨3, ![8, 256, V]⟩ .bf16 :=
  addf (addf (plane V hbc hio ![0, 0, 0] Facts₀.slices_S8x3x256_o0_0_0_S8x1x256 x)
      (plane V hbc hio ![0, 1, 0] Facts₀.slices_S8x3x256_o0_1_0_S8x1x256 x))
    (plane V hbc hio ![0, 2, 0] Facts₀.slices_S8x3x256_o0_2_0_S8x1x256 x)

theorem planes3_apply (V : Nat) (hbc : S8x256x1.Broadcasts ⟨3, ![8, 256, V]⟩) (hio : (⟨3, ![8, 256, V]⟩ : Shape).Iotas .tc 32 [2])
    (x : IVec S8x3x256 32) (b : Fin 8) (r : Fin 256) (v : Fin V) :
    planes3 V hbc hio x (ix3 b r v) = acc3 (fun j => x (ix3 b j r)) v.val := by
  unfold planes3 acc3
  show (plane V hbc hio ![0, 0, 0] _ x (ix3 b r v) + plane V hbc hio ![0, 1, 0] _ x (ix3 b r v))
    + plane V hbc hio ![0, 2, 0] _ x (ix3 b r v) = _
  rw [plane_apply V hbc hio ![0, 0, 0] _ x 0 rfl rfl rfl, plane_apply V hbc hio ![0, 1, 0] _ x 1 rfl rfl rfl,
    plane_apply V hbc hio ![0, 2, 0] _ x 2 rfl rfl rfl]

/-! ## The layout steps around the contractions -/

/-- Row `b * 256 + r` of the flattened `[2048, ·]` arrays. -/
def flat (b : Fin 8) (r : Fin 256) : Fin 2048 := ⟨b.val * 256 + r.val, by omega⟩

/-- The result `[2048, 256]` viewed `[8, 256, 256]`. -/
theorem unflat_apply (y : FVec Ideal S2048x256 .f32) (b : Fin 8) (r d : Fin 256) :
    shapeCast S8x256x256 y Facts₀.shapeCasts_S2048x256_S8x256x256 (ix3 b r d) = y (ix2 (flat b r) d) := by
  refine shapeCast_apply y _ (ix3 b r d) (ix2 (flat b r) d) ?_
  rw [Shape.rowMajor_val_two, Shape.rowMajor_val_three]
  rfl

/-- The position planes `[8, 256, 1000]` viewed `[2048, 1000]`. -/
theorem flat1000_apply (y : FVec Ideal S8x256x1000 .bf16) (b : Fin 8) (r : Fin 256) (q : Fin 1000) :
    shapeCast S2048x1000 y Facts₀.shapeCasts_S8x256x1000_S2048x1000 (ix2 (flat b r) q) = y (ix3 b r q) := by
  refine shapeCast_apply y _ (ix2 (flat b r) q) (ix3 b r q) ?_
  rw [Shape.rowMajor_val_two, Shape.rowMajor_val_three]
  rfl

/-- The value planes and the coordinate planes stacked along the row-number axis, viewed `[2048, 263]`. -/
def stack (a : FVec Ideal S8x256x259 .bf16) (c : FVec Ideal S8x256x4 .bf16) : FVec Ideal S2048x263 .bf16 :=
  shapeCast S2048x263 (concatenate S8x256x263 2 [⟨S8x256x259, a⟩, ⟨S8x256x4, c⟩]
    Facts₀.concatenates_S8x256x259_S8x256x4_S8x256x263_d2) Facts₀.shapeCasts_S8x256x263_S2048x263

theorem stack_apply (a : FVec Ideal S8x256x259 .bf16) (c : FVec Ideal S8x256x4 .bf16) (b : Fin 8) (r : Fin 256) (q : Fin 263) :
    stack a c (ix2 (flat b r) q)
      = if h : q.val < 259 then a (ix3 b r (⟨q.val, h⟩ : Fin 259)) else c (ix3 b r (⟨q.val - 259, by omega⟩ : Fin 4)) := by
  unfold stack
  refine (shapeCast_apply _ Facts₀.shapeCasts_S8x256x263_S2048x263 (ix2 (flat b r) q) (ix3 b r q) ?_).trans ?_
  · rw [Shape.rowMajor_val_two, Shape.rowMajor_val_three]
    rfl
  by_cases h : q.val < 259
  · rw [dif_pos h]
    refine concatenate_pair_apply_left 2 a c _ (ix3 b r q) rfl (ix3 b r (⟨q.val, h⟩ : Fin 259)) (fun e => ?_)
    match e with
    | ⟨0, _⟩ => rfl
    | ⟨1, _⟩ => rfl
    | ⟨2, _⟩ => rfl
  · rw [dif_neg h]
    refine concatenate_pair_apply_right 2 a c _ (ix3 b r q) rfl rfl (ix3 b r (⟨q.val - 259, by omega⟩ : Fin 4)) (fun e he => ?_) ?_
    · match e with
      | ⟨0, _⟩ => rfl
      | ⟨1, _⟩ => rfl
      | ⟨2, _⟩ => exact absurd rfl he
    · show q.val - 259 + 259 = q.val
      omega

/-! ## The two contractions -/

theorem lhs263_0 (i : S2048x256.Idx) (q : dot_S2048x263_S263x256_S2048x256_1_0_0_1_n_n.contr.Idx) :
    (dot_S2048x263_S263x256_S2048x256_1_0_0_1_n_n.lhsIdx i q 0).val = (i 0).val := by
  unfold DotDims.lhsIdx
  rw [dif_neg (show ¬(0 : Fin S2048x263.rank) ∈ dot_S2048x263_S263x256_S2048x256_1_0_0_1_n_n.lhsBatch by decide),
    dif_pos (show (0 : Fin S2048x263.rank) ∈ dot_S2048x263_S263x256_S2048x256_1_0_0_1_n_n.lhsNonContracting by decide)]
  rfl
theorem lhs263_1 (i : S2048x256.Idx) (q : dot_S2048x263_S263x256_S2048x256_1_0_0_1_n_n.contr.Idx) :
    (dot_S2048x263_S263x256_S2048x256_1_0_0_1_n_n.lhsIdx i q 1).val = (q ⟨0, by decide⟩).val :=
  dot_S2048x263_S263x256_S2048x256_1_0_0_1_n_n.lhsIdx_val_of_single rfl i q
theorem rhs263_0 (i : S2048x256.Idx) (q : dot_S2048x263_S263x256_S2048x256_1_0_0_1_n_n.contr.Idx) :
    (dot_S2048x263_S263x256_S2048x256_1_0_0_1_n_n.rhsIdx i q 0).val = (q ⟨0, by decide⟩).val :=
  dot_S2048x263_S263x256_S2048x256_1_0_0_1_n_n.rhsIdx_val_of_single rfl i q
theorem rhs263_1 (i : S2048x256.Idx) (q : dot_S2048x263_S263x256_S2048x256_1_0_0_1_n_n.contr.Idx) :
    (dot_S2048x263_S263x256_S2048x256_1_0_0_1_n_n.rhsIdx i q 1).val = (i 1).val := by
  unfold DotDims.rhsIdx
  rw [dif_neg (show ¬(1 : Fin S263x256.rank) ∈ dot_S2048x263_S263x256_S2048x256_1_0_0_1_n_n.rhsBatch by decide),
    dif_pos (show (1 : Fin S263x256.rank) ∈ dot_S2048x263_S263x256_S2048x256_1_0_0_1_n_n.rhsNonContracting by decide)]
  rfl

/-- The stacked contraction at `(n, d)`: the sum over the 263 stacked rows. -/
theorem mm263_apply (lhs : FVec Ideal S2048x263 .bf16) (rhs : FVec Ideal S263x256 .bf16) (n : Fin 2048) (d : Fin 256) :
    matmul dot_S2048x263_S263x256_S2048x256_1_0_0_1_n_n none lhs rhs (constant S2048x256 .f32 0x00000000#32) (ix2 n d)
      = ∑ q : Fin 263, lhs (ix2 n q) * rhs (ix2 q d) := by
  simp only [matmul]
  rw [Ideal.matmul_constant_zero_apply,
    ← Equiv.sum_comp (ValueIdx.contrEquiv1 dot_S2048x263_S263x256_S2048x256_1_0_0_1_n_n 263 rfl rfl).symm]
  refine Finset.sum_congr rfl fun k _ => ?_
  have hk := ValueIdx.contrEquiv1_symm_val dot_S2048x263_S263x256_S2048x256_1_0_0_1_n_n 263 rfl rfl k
  have el : dot_S2048x263_S263x256_S2048x256_1_0_0_1_n_n.lhsIdx (ix2 n d)
      ((ValueIdx.contrEquiv1 dot_S2048x263_S263x256_S2048x256_1_0_0_1_n_n 263 rfl rfl).symm k) = ix2 n k :=
    funext fun a => Fin.ext (by
      match a with
      | ⟨0, _⟩ => exact lhs263_0 _ _
      | ⟨1, _⟩ => exact (lhs263_1 _ _).trans hk)
  have er : dot_S2048x263_S263x256_S2048x256_1_0_0_1_n_n.rhsIdx (ix2 n d)
      ((ValueIdx.contrEquiv1 dot_S2048x263_S263x256_S2048x256_1_0_0_1_n_n 263 rfl rfl).symm k) = ix2 k d :=
    funext fun a => Fin.ext (by
      match a with
      | ⟨0, _⟩ => exact (rhs263_0 _ _).trans hk
      | ⟨1, _⟩ => exact rhs263_1 _ _)
  rw [el, er]

theorem lhs1000_0 (i : S2048x256.Idx) (q : dot_S2048x1000_S1000x256_S2048x256_1_0_0_1_n_n.contr.Idx) :
    (dot_S2048x1000_S1000x256_S2048x256_1_0_0_1_n_n.lhsIdx i q 0).val = (i 0).val := by
  unfold DotDims.lhsIdx
  rw [dif_neg (show ¬(0 : Fin S2048x1000.rank) ∈ dot_S2048x1000_S1000x256_S2048x256_1_0_0_1_n_n.lhsBatch by decide),
    dif_pos (show (0 : Fin S2048x1000.rank) ∈ dot_S2048x1000_S1000x256_S2048x256_1_0_0_1_n_n.lhsNonContracting by decide)]
  rfl
theorem lhs1000_1 (i : S2048x256.Idx) (q : dot_S2048x1000_S1000x256_S2048x256_1_0_0_1_n_n.contr.Idx) :
    (dot_S2048x1000_S1000x256_S2048x256_1_0_0_1_n_n.lhsIdx i q 1).val = (q ⟨0, by decide⟩).val :=
  dot_S2048x1000_S1000x256_S2048x256_1_0_0_1_n_n.lhsIdx_val_of_single rfl i q
theorem rhs1000_0 (i : S2048x256.Idx) (q : dot_S2048x1000_S1000x256_S2048x256_1_0_0_1_n_n.contr.Idx) :
    (dot_S2048x1000_S1000x256_S2048x256_1_0_0_1_n_n.rhsIdx i q 0).val = (q ⟨0, by decide⟩).val :=
  dot_S2048x1000_S1000x256_S2048x256_1_0_0_1_n_n.rhsIdx_val_of_single rfl i q
theorem rhs1000_1 (i : S2048x256.Idx) (q : dot_S2048x1000_S1000x256_S2048x256_1_0_0_1_n_n.contr.Idx) :
    (dot_S2048x1000_S1000x256_S2048x256_1_0_0_1_n_n.rhsIdx i q 1).val = (i 1).val := by
  unfold DotDims.rhsIdx
  rw [dif_neg (show ¬(1 : Fin S1000x256.rank) ∈ dot_S2048x1000_S1000x256_S2048x256_1_0_0_1_n_n.rhsBatch by decide),
    dif_pos (show (1 : Fin S1000x256.rank) ∈ dot_S2048x1000_S1000x256_S2048x256_1_0_0_1_n_n.rhsNonContracting by decide)]
  rfl

/-- The position contraction at `(n, d)`: the sum over the 1000 position rows. -/
theorem mm1000_apply (lhs : FVec Ideal S2048x1000 .bf16) (rhs : FVec Ideal S1000x256 .bf16) (n : Fin 2048) (d : Fin 256) :
    matmul dot_S2048x1000_S1000x256_S2048x256_1_0_0_1_n_n none lhs rhs (constant S2048x256 .f32 0x00000000#32) (ix2 n d)
      = ∑ q : Fin 1000, lhs (ix2 n q) * rhs (ix2 q d) := by
  simp only [matmul]
  rw [Ideal.matmul_constant_zero_apply,
    ← Equiv.sum_comp (ValueIdx.contrEquiv1 dot_S2048x1000_S1000x256_S2048x256_1_0_0_1_n_n 1000 rfl rfl).symm]
  refine Finset.sum_congr rfl fun k _ => ?_
  have hk := ValueIdx.contrEquiv1_symm_val dot_S2048x1000_S1000x256_S2048x256_1_0_0_1_n_n 1000 rfl rfl k
  have el : dot_S2048x1000_S1000x256_S2048x256_1_0_0_1_n_n.lhsIdx (ix2 n d)
      ((ValueIdx.contrEquiv1 dot_S2048x1000_S1000x256_S2048x256_1_0_0_1_n_n 1000 rfl rfl).symm k) = ix2 n k :=
    funext fun a => Fin.ext (by
      match a with
      | ⟨0, _⟩ => exact lhs1000_0 _ _
      | ⟨1, _⟩ => exact (lhs1000_1 _ _).trans hk)
  have er : dot_S2048x1000_S1000x256_S2048x256_1_0_0_1_n_n.rhsIdx (ix2 n d)
      ((ValueIdx.contrEquiv1 dot_S2048x1000_S1000x256_S2048x256_1_0_0_1_n_n 1000 rfl rfl).symm k) = ix2 k d :=
    funext fun a => Fin.ext (by
      match a with
      | ⟨0, _⟩ => exact (rhs1000_0 _ _).trans hk
      | ⟨1, _⟩ => exact rhs1000_1 _ _)
  rw [el, er]

/-! ## One element of the body's store -/

/-- The stacked indicator row of block element `(b, r)`: the value tokens' indicators on rows `0 … 258`, the
    coordinate tokens' on rows `259 … 262`. -/
def rowA (x0 x1 : IVec S8x3x256 32) (b : Fin 8) (r : Fin 256) (q : Fin 263) : EReal :=
  if q.val < 259 then acc3 (fun j => x0 (ix3 b j r)) q.val else acc3 (fun j => x1 (ix3 b j r)) (q.val - 259)

theorem stack_planes_apply (x0 x1 : IVec S8x3x256 32) (b : Fin 8) (r : Fin 256) (q : Fin 263) :
    stack (planes3 259 Facts₀.broadcasts_S8x256x1_S8x256x259 Facts₀.iota_S8x256x259_d2_w32 x0)
      (planes3 4 Facts₀.broadcasts_S8x256x1_S8x256x4 Facts₀.iota_S8x256x4_d2_w32 x1) (ix2 (flat b r) q) = rowA x0 x1 b r q := by
  rw [stack_apply]
  unfold rowA
  by_cases h : q.val < 259
  · rw [dif_pos h, if_pos h]
    exact planes3_apply 259 _ _ x0 b r ⟨q.val, h⟩
  · rw [dif_neg h, if_neg h]
    exact planes3_apply 4 _ _ x1 b r ⟨q.val - 259, by omega⟩

/-- THE STORE'S VALUE at `(b, r, d)`: the stacked contraction with each half of the stacked table, the position
    contraction with each half of the position table, added and scaled. -/
theorem pay_point (x0 x1 x2 : Vec Ideal S8x3x256 .i32) (x3 x4 : Vec Ideal S263x256 .bf16) (x5 x6 : Vec Ideal S1000x256 .bf16)
    (b : Fin 8) (r d : Fin 256) :
    k0_pay1 (k0_pay5 (k0_pay2 x0) (k0_pay3 x1) (k0_pay4 x1) x3 x4) (k0_pay6 x2) x5 x6 (ix3 b r d)
      = (((∑ q : Fin 263, rowA x0 x1 b r q * x3 (ix2 q d)) + ∑ q : Fin 263, rowA x0 x1 b r q * x4 (ix2 q d))
          + ((∑ q : Fin 1000, acc3 (fun j => x2 (ix3 b j r)) q.val * x5 (ix2 q d))
            + ∑ q : Fin 1000, acc3 (fun j => x2 (ix3 b j r)) q.val * x6 (ix2 q d))) * scaleWord := by
  have e2 : k0_pay2 (F := Ideal) x0 = planes3 259 Facts₀.broadcasts_S8x256x1_S8x256x259 Facts₀.iota_S8x256x259_d2_w32
      (shapeCast S8x3x256 x0 Facts₀.shapeCasts_S8x3x256_S8x3x256) := rfl
  have e6 : k0_pay6 (F := Ideal) x2 = planes3 1000 Facts₀.broadcasts_S8x256x1_S8x256x1000 Facts₀.iota_S8x256x1000_d2_w32
      (shapeCast S8x3x256 x2 Facts₀.shapeCasts_S8x3x256_S8x3x256) := rfl
  have e5 : ∀ v30 : FVec Ideal S8x256x259 .bf16, k0_pay5 v30 (k0_pay3 x1) (k0_pay4 x1) x3 x4
      = shapeCast S8x256x256 (addf
          (matmul dot_S2048x263_S263x256_S2048x256_1_0_0_1_n_n none
            (stack v30 (planes3 4 Facts₀.broadcasts_S8x256x1_S8x256x4 Facts₀.iota_S8x256x4_d2_w32
              (shapeCast S8x3x256 x1 Facts₀.shapeCasts_S8x3x256_S8x3x256)))
            (shapeCast S263x256 x3 Facts₀.shapeCasts_S263x256_S263x256) (constant S2048x256 .f32 0x00000000#32))
          (matmul dot_S2048x263_S263x256_S2048x256_1_0_0_1_n_n none
            (stack v30 (planes3 4 Facts₀.broadcasts_S8x256x1_S8x256x4 Facts₀.iota_S8x256x4_d2_w32
              (shapeCast S8x3x256 x1 Facts₀.shapeCasts_S8x3x256_S8x3x256)))
            (shapeCast S263x256 x4 Facts₀.shapeCasts_S263x256_S263x256) (constant S2048x256 .f32 0x00000000#32)))
        Facts₀.shapeCasts_S2048x256_S8x256x256 := fun _ => rfl
  have e1 : ∀ (v71 : FVec Ideal S8x256x256 .f32) (v102 : FVec Ideal S8x256x1000 .bf16), k0_pay1 v71 v102 x5 x6
      = mulf (addf v71 (shapeCast S8x256x256 (addf
          (matmul dot_S2048x1000_S1000x256_S2048x256_1_0_0_1_n_n none
            (shapeCast S2048x1000 v102 Facts₀.shapeCasts_S8x256x1000_S2048x1000)
            (shapeCast S1000x256 x5 Facts₀.shapeCasts_S1000x256_S1000x256) (constant S2048x256 .f32 0x00000000#32))
          (matmul dot_S2048x1000_S1000x256_S2048x256_1_0_0_1_n_n none
            (shapeCast S2048x1000 v102 Facts₀.shapeCasts_S8x256x1000_S2048x1000)
            (shapeCast S1000x256 x6 Facts₀.shapeCasts_S1000x256_S1000x256) (constant S2048x256 .f32 0x00000000#32)))
        Facts₀.shapeCasts_S2048x256_S8x256x256))
        (broadcast S8x256x256 (Scalar.ofBits .f32 0x41800000#32)) := fun _ _ => rfl
  rw [e1, e5, e2, e6]
  simp only [shapeCast_self]
  rw [mulf_apply, addf_apply, unflat_apply, unflat_apply, addf_apply, addf_apply, mm263_apply, mm263_apply,
    mm1000_apply, mm1000_apply, broadcast_apply]
  simp only [stack_planes_apply, flat1000_apply, planes3_apply]
  rfl

end Cert.Embed.Kernel

end
-- ==== Proof.KernelHost.lean ====
/-
  What the region finds in its operand arrays.

  Before the launch the host lays each token array out as `[16, 3, 2048]` (drop token 6144, group by three, swap
  the last two axes), so entry `(B, j, K)` is token `3K + j` of batch row `B`; stacks the value and coordinate
  tables into `[263, 256]`; and splits each table into itself (a change of format, the identity on extended
  reals) and the residue `T - T`.
-/
import proofs.«404823_j68453188763948_3_alg».proof.Proof.Gen.KernelIdeal.Frame
import proofs.«404823_j68453188763948_3_alg».proof.Proof.Spec
import Idealize.ShloMosaic.Lib.Pipeline.Value
import Idealize.ShloMosaic.Lib.ValueIdx
import Idealize.ShloMosaic.Lib.StableHlo.Run

noncomputable section

namespace Cert.Embed.Kernel

open Idealize.ShloMosaic Idealize.ShloMosaic.TcCoe Idealize.ShloMosaic.ValueIdx Idealize.SL.Sem Cert.KernelIdeal Cert.KernelIdeal.Gen Cert.Embed
open Idealize.ShloMosaic.StableHlo

variable [Cert.KernelIdeal.Facts]

/-! ## The layouts, as functions of an array -/

/-- A token array laid out `[16, 3, 2048]`. -/
def tokLayout (x : IVec S16x6145 32) : IVec S16x3x2048 32 :=
  transpose S16x3x2048 [0, 2, 1]
    (shapeCast S16x2048x3 (extractStridedSlice S16x6144 ![0, 0] x Facts₀.slices_S16x6145_S16x6144_0_0)
      Facts₀.shapeCasts_S16x6144_S16x2048x3) Facts₀.transposes_S16x2048x3_S16x3x2048_0_2_1

/-- Entry `(B, j, K)` of the layout is token `3K + j` of batch row `B`. -/
theorem tokLayout_apply (x : IVec S16x6145 32) (B : Fin 16) (j : Fin 3) (K : Fin 2048) :
    tokLayout x (ix3 B j K) = x (ix2 B (pos K j)) := by
  unfold tokLayout
  refine (transpose_apply [0, 2, 1] _ Facts₀.transposes_S16x2048x3_S16x3x2048_0_2_1 (ix3 B j K) (ix3 B K j) (fun e => ?_)).trans ?_
  · match e with
    | ⟨0, _⟩ => rfl
    | ⟨1, _⟩ => rfl
    | ⟨2, _⟩ => rfl
  refine (shapeCast_apply _ Facts₀.shapeCasts_S16x6144_S16x2048x3 (ix3 B K j) (ix2 B (⟨3 * K.val + j.val, by omega⟩ : Fin 6144)) ?_).trans ?_
  · rw [Shape.rowMajor_val_two, Shape.rowMajor_val_three]
    show B.val * 6144 + (3 * K.val + j.val) = (B.val * 2048 + K.val) * 3 + j.val
    omega
  refine extractStridedSlice_apply ![0, 0] x Facts₀.slices_S16x6145_S16x6144_0_0 _ (ix2 B (pos K j)) (fun e => ?_)
  match e with
  | ⟨0, _⟩ => show B.val = 0 + B.val; omega
  | ⟨1, _⟩ => show 3 * K.val + j.val = 0 + (3 * K.val + j.val); omega

/-- The value table on top of the coordinate table. -/
def stackTables (a : FVec Ideal S259x256 .f32) (b : FVec Ideal S4x256 .f32) : FVec Ideal S263x256 .f32 :=
  concatenate S263x256 0 [⟨S259x256, a⟩, ⟨S4x256, b⟩] Facts₀.concatenates_S259x256_S4x256_S263x256_d0

theorem stackTables_apply (a : FVec Ideal S259x256 .f32) (b : FVec Ideal S4x256 .f32) (q : Fin 263) (d : Fin 256) :
    stackTables a b (ix2 q d)
      = if h : q.val < 259 then a (ix2 (⟨q.val, h⟩ : Fin 259) d) else b (ix2 (⟨q.val - 259, by omega⟩ : Fin 4) d) := by
  unfold stackTables
  by_cases h : q.val < 259
  · rw [dif_pos h]
    refine concatenate_pair_apply_left 0 a b _ (ix2 q d) rfl (ix2 (⟨q.val, h⟩ : Fin 259) d) (fun e => ?_)
    match e with
    | ⟨0, _⟩ => rfl
    | ⟨1, _⟩ => rfl
  · rw [dif_neg h]
    refine concatenate_pair_apply_right 0 a b _ (ix2 q d) rfl rfl (ix2 (⟨q.val - 259, by omega⟩ : Fin 4) d) (fun e he => ?_) ?_
    · match e with
      | ⟨0, _⟩ => exact absurd rfl he
      | ⟨1, _⟩ => rfl
    · show q.val - 259 + 259 = q.val
      omega

/-! ## The region's operand arrays -/

variable (m : (ℓ : Loc nD τ sig) → Buf (Elt Ideal) ℓ)

/-- The six argument arrays on device `c`, at their literal types. -/
abbrev argV (c : Dev nD) : IVec S16x6145 32 := m ((c : Thread nD τ).loc main_arg0)
abbrev argC (c : Dev nD) : IVec S16x6145 32 := m ((c : Thread nD τ).loc main_arg1)
abbrev argP (c : Dev nD) : IVec S16x6145 32 := m ((c : Thread nD τ).loc main_arg2)
abbrev tabV (c : Dev nD) : FVec Ideal S259x256 .f32 := m ((c : Thread nD τ).loc main_arg3)
abbrev tabC (c : Dev nD) : FVec Ideal S4x256 .f32 := m ((c : Thread nD τ).loc main_arg4)
abbrev tabP (c : Dev nD) : FVec Ideal S1000x256 .f32 := m ((c : Thread nD τ).loc main_arg5)

theorem V_v2 (c : Dev nD) : (V m c main_v2 : S16x3x2048.Idx → BitVec 32) = tokLayout (argV m c) := by
  dsimp only [Gen.V, Gen.hostOps0]; after_results; rfl
theorem V_v5 (c : Dev nD) : (V m c main_v5 : S16x3x2048.Idx → BitVec 32) = tokLayout (argC m c) := by
  dsimp only [Gen.V, Gen.hostOps0]; after_results; rfl
theorem V_v8 (c : Dev nD) : (V m c main_v8 : S16x3x2048.Idx → BitVec 32) = tokLayout (argP m c) := by
  dsimp only [Gen.V, Gen.hostOps0]; after_results; rfl

/-- The stacked table's first half: the stacked table itself. -/
theorem V_v10 (c : Dev nD) : (V m c main_v10 : S263x256.Idx → EReal)
    = stackTables (tabV m c) (tabC m c) := by
  dsimp only [Gen.V, Gen.hostOps0]; after_results; rfl
/-- Its second half: the residue. -/
theorem V_v13 (c : Dev nD) : (V m c main_v13 : S263x256.Idx → EReal)
    = fun i => stackTables (tabV m c) (tabC m c) i
        - stackTables (tabV m c) (tabC m c) i := by
  dsimp only [Gen.V, Gen.hostOps0]; after_results; rfl
theorem V_v14 (c : Dev nD) : (V m c main_v14 : S1000x256.Idx → EReal) = tabP m c := by
  dsimp only [Gen.V, Gen.hostOps0]; after_results; rfl
theorem V_v17 (c : Dev nD) : (V m c main_v17 : S1000x256.Idx → EReal)
    = fun i => tabP m c i - tabP m c i := by
  dsimp only [Gen.V, Gen.hostOps0]; after_results; rfl

end Cert.Embed.Kernel

end
-- ==== Proof.KernelValue.lean ====
/-
  The kernel's result array is the embedding `G`.

  Grid point `(bi, ki)` reads block `(bi, 0, ki)` of each token layout `[16, 3, 2048]` (8 batch rows, the three tokens
  of 256 vertices) and the four whole tables, and writes block `(bi, ki, 0)` of the result `[16, 2048, 256]`. Element
  `(b, r, d)` of that block is vertex `K = 256 ki + r` of batch row `B = 8 bi + b`: its stored value is the point
  arithmetic of the tokens `3K, 3K + 1, 3K + 2` of row `B`, which inside the domain is `G` at `(B, K, d)`. The 16
  blocks tile the result.
-/
import proofs.«404823_j68453188763948_3_alg».proof.Proof.Gen.KernelIdeal.Value
import proofs.«404823_j68453188763948_3_alg».proof.Proof.KernelPoint
import proofs.«404823_j68453188763948_3_alg».proof.Proof.KernelHost

noncomputable section

namespace Cert.Embed.Kernel

open Idealize.ShloMosaic Idealize.ShloMosaic.TcCoe Idealize.ShloMosaic.ValueIdx Idealize.SL.Sem Cert.KernelIdeal Cert.KernelIdeal.Gen Cert.Embed
open Idealize.ShloMosaic.Pipeline (Dat)

variable [Cert.KernelIdeal.Facts]
variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the 16 grid points: the token windows move with the result's block (batch
    block, then vertex block), the table windows stay at block 0, and the result's block indices are `(bi, ki, 0)`
    with `bi ≤ 1`, `ki ≤ 7`. -/
theorem idx_facts : ∀ t : Fin cfg0.N,
    win0_0.index t (0 : Fin 3) = win0_7.index t (0 : Fin 3) ∧ win0_0.index t (1 : Fin 3) = 0 ∧ win0_0.index t (2 : Fin 3) = win0_7.index t (1 : Fin 3)
    ∧ win0_1.index t (0 : Fin 3) = win0_7.index t (0 : Fin 3) ∧ win0_1.index t (1 : Fin 3) = 0 ∧ win0_1.index t (2 : Fin 3) = win0_7.index t (1 : Fin 3)
    ∧ win0_2.index t (0 : Fin 3) = win0_7.index t (0 : Fin 3) ∧ win0_2.index t (1 : Fin 3) = 0 ∧ win0_2.index t (2 : Fin 3) = win0_7.index t (1 : Fin 3)
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) ≤ 1 ∧ win0_7.index t (1 : Fin 3) ≤ 7 ∧ win0_7.index t (2 : Fin 3) = 0 :=
  (by decide +kernel : ∀ t : Fin grid0.N, _)

/-- Every block `(q0, q1, 0)` of the result is some point's. -/
theorem idx_onto : ∀ (q0 : Fin 2) (q1 : Fin 8), ∃ t : Fin cfg0.N, win0_7.index t = ![q0.val, q1.val, 0] :=
  (by decide +kernel : ∀ (q0 : Fin 2) (q1 : Fin 8), ∃ t : Fin grid0.N, win0_7.index t = ![q0.val, q1.val, 0])

/-! ## The blocks, at their literal types -/

abbrev blkV (c : Dev nD) (t : Fin cfg0.N) : Vec Ideal S8x3x256 .i32 := iblk m c 0 t
abbrev blkC (c : Dev nD) (t : Fin cfg0.N) : Vec Ideal S8x3x256 .i32 := iblk m c 1 t
abbrev blkP (c : Dev nD) (t : Fin cfg0.N) : Vec Ideal S8x3x256 .i32 := iblk m c 2 t
abbrev blkH (c : Dev nD) (t : Fin cfg0.N) : Vec Ideal S263x256 .bf16 := iblk m c 3 t
abbrev blkL (c : Dev nD) (t : Fin cfg0.N) : Vec Ideal S263x256 .bf16 := iblk m c 4 t
abbrev blkPH (c : Dev nD) (t : Fin cfg0.N) : Vec Ideal S1000x256 .bf16 := iblk m c 5 t
abbrev blkPL (c : Dev nD) (t : Fin cfg0.N) : Vec Ideal S1000x256 .bf16 := iblk m c 6 t

/-- Element `(b, j, r)` of a point's value-token block is token `3K + j` of batch row `B`. -/
theorem blkV_apply (c : Dev nD) (t : Fin cfg0.N) (b : Fin 8) (j : Fin 3) (r : Fin 256) (B : Fin 16) (K : Fin 2048)
    (hB : B.val = win0_7.index t (0 : Fin 3) * 8 + b.val) (hK : K.val = win0_7.index t (1 : Fin 3) * 256 + r.val) :
    blkV m c t (ix3 b j r) = argV m c (ix2 B (pos K j)) := by
  obtain ⟨e0, e1, e2, -⟩ := idx_facts t
  show V m c main_v2 (((cfg0.win 0).blk t).view.emb (ix3 b j r)) = _
  refine (congrFun (V_v2 m c) _).trans ?_
  refine (congrArg (tokLayout (argV m c)) (?_ : ((cfg0.win 0).blk t).view.emb (ix3 b j r) = ix3 B j K)).trans
    (tokLayout_apply _ B j K)
  funext a; apply Fin.ext
  match a with
  | ⟨0, _⟩ => show win0_0.index t (0 : Fin 3) * 8 + 1 * b.val = B.val; omega
  | ⟨1, _⟩ => show win0_0.index t (1 : Fin 3) * 3 + 1 * j.val = j.val; omega
  | ⟨2, _⟩ => show win0_0.index t (2 : Fin 3) * 256 + 1 * r.val = K.val; omega

theorem blkC_apply (c : Dev nD) (t : Fin cfg0.N) (b : Fin 8) (j : Fin 3) (r : Fin 256) (B : Fin 16) (K : Fin 2048)
    (hB : B.val = win0_7.index t (0 : Fin 3) * 8 + b.val) (hK : K.val = win0_7.index t (1 : Fin 3) * 256 + r.val) :
    blkC m c t (ix3 b j r) = argC m c (ix2 B (pos K j)) := by
  obtain ⟨-, -, -, e0, e1, e2, -⟩ := idx_facts t
  show V m c main_v5 (((cfg0.win 1).blk t).view.emb (ix3 b j r)) = _
  refine (congrFun (V_v5 m c) _).trans ?_
  refine (congrArg (tokLayout (argC m c)) (?_ : ((cfg0.win 1).blk t).view.emb (ix3 b j r) = ix3 B j K)).trans
    (tokLayout_apply _ B j K)
  funext a; apply Fin.ext
  match a with
  | ⟨0, _⟩ => show win0_1.index t (0 : Fin 3) * 8 + 1 * b.val = B.val; omega
  | ⟨1, _⟩ => show win0_1.index t (1 : Fin 3) * 3 + 1 * j.val = j.val; omega
  | ⟨2, _⟩ => show win0_1.index t (2 : Fin 3) * 256 + 1 * r.val = K.val; omega

theorem blkP_apply (c : Dev nD) (t : Fin cfg0.N) (b : Fin 8) (j : Fin 3) (r : Fin 256) (B : Fin 16) (K : Fin 2048)
    (hB : B.val = win0_7.index t (0 : Fin 3) * 8 + b.val) (hK : K.val = win0_7.index t (1 : Fin 3) * 256 + r.val) :
    blkP m c t (ix3 b j r) = argP m c (ix2 B (pos K j)) := by
  obtain ⟨-, -, -, -, -, -, e0, e1, e2, -⟩ := idx_facts t
  show V m c main_v8 (((cfg0.win 2).blk t).view.emb (ix3 b j r)) = _
  refine (congrFun (V_v8 m c) _).trans ?_
  refine (congrArg (tokLayout (argP m c)) (?_ : ((cfg0.win 2).blk t).view.emb (ix3 b j r) = ix3 B j K)).trans
    (tokLayout_apply _ B j K)
  funext a; apply Fin.ext
  match a with
  | ⟨0, _⟩ => show win0_2.index t (0 : Fin 3) * 8 + 1 * b.val = B.val; omega
  | ⟨1, _⟩ => show win0_2.index t (1 : Fin 3) * 3 + 1 * j.val = j.val; omega
  | ⟨2, _⟩ => show win0_2.index t (2 : Fin 3) * 256 + 1 * r.val = K.val; omega

/-- A table window's one block is the whole table: the stacked table, … -/
theorem blkH_apply (c : Dev nD) (t : Fin cfg0.N) (q : Fin 263) (d : Fin 256) :
    blkH m c t (ix2 q d) = stackTables (tabV m c) (tabC m c) (ix2 q d) := by
  obtain ⟨-, -, -, -, -, -, -, -, -, e0, e1, -⟩ := idx_facts t
  show V m c main_v10 (((cfg0.win 3).blk t).view.emb (ix2 q d)) = _
  refine (congrFun (V_v10 m c) _).trans (congrArg (stackTables (tabV m c) (tabC m c)) ?_)
  funext a; apply Fin.ext
  match a with
  | ⟨0, _⟩ => show win0_3.index t (0 : Fin 2) * 263 + 1 * q.val = q.val; omega
  | ⟨1, _⟩ => show win0_3.index t (1 : Fin 2) * 256 + 1 * d.val = d.val; omega

/-- … its residue, … -/
theorem blkL_apply (c : Dev nD) (t : Fin cfg0.N) (q : Fin 263) (d : Fin 256) :
    blkL m c t (ix2 q d) = stackTables (tabV m c) (tabC m c) (ix2 q d) - stackTables (tabV m c) (tabC m c) (ix2 q d) := by
  obtain ⟨-, -, -, -, -, -, -, -, -, -, -, e0, e1, -⟩ := idx_facts t
  show V m c main_v13 (((cfg0.win 4).blk t).view.emb (ix2 q d)) = _
  have hemb : ((cfg0.win 4).blk t).view.emb (ix2 q d) = ix2 q d := by
    funext a; apply Fin.ext
    match a with
    | ⟨0, _⟩ => show win0_4.index t (0 : Fin 2) * 263 + 1 * q.val = q.val; omega
    | ⟨1, _⟩ => show win0_4.index t (1 : Fin 2) * 256 + 1 * d.val = d.val; omega
  refine (congrFun (V_v13 m c) _).trans ?_
  show stackTables (tabV m c) (tabC m c) (((cfg0.win 4).blk t).view.emb (ix2 q d))
    - stackTables (tabV m c) (tabC m c) (((cfg0.win 4).blk t).view.emb (ix2 q d)) = _
  rw [hemb]

/-- … the position table, … -/
theorem blkPH_apply (c : Dev nD) (t : Fin cfg0.N) (q : Fin 1000) (d : Fin 256) :
    blkPH m c t (ix2 q d) = tabP m c (ix2 q d) := by
  obtain ⟨-, -, -, -, -, -, -, -, -, -, -, -, -, e0, e1, -⟩ := idx_facts t
  show V m c main_v14 (((cfg0.win 5).blk t).view.emb (ix2 q d)) = _
  refine (congrFun (V_v14 m c) _).trans (congrArg (tabP m c) ?_)
  funext a; apply Fin.ext
  match a with
  | ⟨0, _⟩ => show win0_5.index t (0 : Fin 2) * 1000 + 1 * q.val = q.val; omega
  | ⟨1, _⟩ => show win0_5.index t (1 : Fin 2) * 256 + 1 * d.val = d.val; omega

/-- … and its residue. -/
theorem blkPL_apply (c : Dev nD) (t : Fin cfg0.N) (q : Fin 1000) (d : Fin 256) :
    blkPL m c t (ix2 q d) = tabP m c (ix2 q d) - tabP m c (ix2 q d) := by
  obtain ⟨-, -, -, -, -, -, -, -, -, -, -, -, -, -, -, e0, e1, -⟩ := idx_facts t
  show V m c main_v17 (((cfg0.win 6).blk t).view.emb (ix2 q d)) = _
  have hemb : ((cfg0.win 6).blk t).view.emb (ix2 q d) = ix2 q d := by
    funext a; apply Fin.ext
    match a with
    | ⟨0, _⟩ => show win0_6.index t (0 : Fin 2) * 1000 + 1 * q.val = q.val; omega
    | ⟨1, _⟩ => show win0_6.index t (1 : Fin 2) * 256 + 1 * d.val = d.val; omega
  refine (congrFun (V_v17 m c) _).trans ?_
  show tabP m c (((cfg0.win 6).blk t).view.emb (ix2 q d)) - tabP m c (((cfg0.win 6).blk t).view.emb (ix2 q d)) = _
  rw [hemb]

/-! ## What a point writes back -/

/-- WHAT POINT `t` WRITES BACK is block `t` of `G` of the argument arrays, inside the domain. -/
theorem flushed_eq (c : Dev nD)
    (hd : InDomain (argV m c) (argC m c) (argP m c) (tabV m c) (tabC m c) (tabP m c)) (t : Fin cfg0.N) :
    (dats m 0 c).flushed 7 t
      = ((cfg0.win 7).blk t).view.read (Elt Ideal) (G (argV m c) (argC m c) (argP m c) (tabV m c) (tabC m c) (tabP m c)) := by
  rw [Cert.KernelIdeal.Value.flushed7]
  unfold out0_7
  rw [View.canon_unit_zero hz3]
  simp only [View.ld_unit_zero (S := S8x3x256) hz3, View.ld_unit_zero (S := S263x256) hz2, View.ld_unit_zero (S := S1000x256) hz2]
  funext y
  obtain ⟨b, r, d, rfl⟩ : ∃ (b : Fin 8) (r : Fin 256) (d : Fin 256), y = ix3 b r d := ⟨y 0, y 1, y 2, eq_ix3 y⟩
  obtain ⟨-, -, -, -, -, -, -, -, -, -, -, -, -, -, -, -, -, e70, e71, e72⟩ := idx_facts t
  have hBlt : win0_7.index t (0 : Fin 3) * 8 + b.val < 16 := by omega
  have hKlt : win0_7.index t (1 : Fin 3) * 256 + r.val < 2048 := by omega
  have hemb : ((cfg0.win 7).blk t).view.emb (ix3 b r d)
      = ix3 (⟨win0_7.index t (0 : Fin 3) * 8 + b.val, hBlt⟩ : Fin 16) (⟨win0_7.index t (1 : Fin 3) * 256 + r.val, hKlt⟩ : Fin 2048) d := by
    funext a; apply Fin.ext
    match a with
    | ⟨0, _⟩ => show win0_7.index t (0 : Fin 3) * 8 + 1 * b.val = win0_7.index t (0 : Fin 3) * 8 + b.val; omega
    | ⟨1, _⟩ => show win0_7.index t (1 : Fin 3) * 256 + 1 * r.val = win0_7.index t (1 : Fin 3) * 256 + r.val; omega
    | ⟨2, _⟩ => show win0_7.index t (2 : Fin 3) * 256 + 1 * d.val = d.val; omega
  show k0_pay1 (k0_pay5 (k0_pay2 (blkV m c t)) (k0_pay3 (blkC m c t)) (k0_pay4 (blkC m c t)) (blkH m c t) (blkL m c t))
      (k0_pay6 (blkP m c t)) (blkPH m c t) (blkPL m c t) (ix3 b r d)
    = G (argV m c) (argC m c) (argP m c) (tabV m c) (tabC m c) (tabP m c) (((cfg0.win 7).blk t).view.emb (ix3 b r d))
  rw [hemb, G_ix3]
  generalize hBdef : (⟨win0_7.index t (0 : Fin 3) * 8 + b.val, hBlt⟩ : Fin 16) = B
  generalize hKdef : (⟨win0_7.index t (1 : Fin 3) * 256 + r.val, hKlt⟩ : Fin 2048) = K
  have hB : B.val = win0_7.index t (0 : Fin 3) * 8 + b.val := by rw [← hBdef]
  have hK : K.val = win0_7.index t (1 : Fin 3) * 256 + r.val := by rw [← hKdef]
  refine (pay_point (blkV m c t) (blkC m c t) (blkP m c t) (blkH m c t) (blkL m c t) (blkPH m c t) (blkPL m c t) b r d).trans ?_
  have tV : (fun j => blkV m c t (ix3 b j r)) = fun j => argV m c (ix2 B (pos K j)) :=
    funext fun j => blkV_apply m c t b j r B K hB hK
  have tC : (fun j => blkC m c t (ix3 b j r)) = fun j => argC m c (ix2 B (pos K j)) :=
    funext fun j => blkC_apply m c t b j r B K hB hK
  have tP : (fun j => blkP m c t (ix3 b j r)) = fun j => argP m c (ix2 B (pos K j)) :=
    funext fun j => blkP_apply m c t b j r B K hB hK
  refine (point_eq (fun v => tabV m c (ix2 v d)) (fun v => tabC m c (ix2 v d)) (fun v => tabP m c (ix2 v d))
    (fun v => hd.vt_real _) (fun v => hd.ct_real _) (fun v => hd.pt_real _)
    (fun j => argV m c (ix2 B (pos K j))) (fun j => argC m c (ix2 B (pos K j))) (fun j => argP m c (ix2 B (pos K j)))
    (fun j => hd.tv_lt _) (fun j => hd.tc_lt _) (fun j => hd.tp_lt _)
    (rowA (blkV m c t) (blkC m c t) b r) (fun q => blkH m c t (ix2 q d)) (fun q => blkL m c t (ix2 q d))
    (fun q => acc3 (fun j => blkP m c t (ix3 b j r)) q.val) (fun q => blkPH m c t (ix2 q d)) (fun q => blkPL m c t (ix2 q d))
    (fun q => by unfold rowA; rw [tV, tC])
    (fun q => (blkH_apply m c t q d).trans (stackTables_apply _ _ q d))
    (fun q => by show blkL m c t (ix2 q d) = blkH m c t (ix2 q d) - blkH m c t (ix2 q d); rw [blkL_apply, blkH_apply])
    (fun q => by show acc3 (fun j => blkP m c t (ix3 b j r)) q.val = _; rw [tP])
    (fun q => blkPH_apply m c t q d)
    (fun q => blkPL_apply m c t q d)).trans ?_
  unfold Gat
  refine congrArg (zeroWord + ·) (Finset.sum_congr rfl fun j _ => ?_)
  rw [row_eq _ _ _ _ (hd.tv_lt _), row_eq _ _ _ _ (hd.tc_lt _), row_eq _ _ _ _ (hd.tp_lt _)]

/-! ## The blocks tile the result -/

theorem mem_blk7 (t : Fin cfg0.N) (i : S16x2048x256.Idx) :
    i ∈ ((cfg0.win 7).blk t).view.set ↔ ∀ a : Fin 3, win0_7.index t a * S8x256x256.size a ≤ (i a).val
      ∧ (i a).val < win0_7.index t a * S8x256x256.size a + S8x256x256.size a := by
  show i ∈ ((View.whole main_v18).slice (win0_7.rect t)).set ↔ _
  rw [View.set_slice_whole, Rect.mem_set_unit]
  exact Iff.rfl

/-- Every index of the result is in the block of the point `(B / 8, K / 256)`. -/
theorem cover (i : S16x2048x256.Idx) :
    ∃ t : Fin cfg0.N, (cfg0.win 7).flush t = true ∧ i ∈ ((cfg0.win 7).blk t).view.set := by
  have h0 : (i 0).val < 16 := (i 0).isLt
  have h1 : (i 1).val < 2048 := (i 1).isLt
  have h2 : (i 2).val < 256 := (i 2).isLt
  obtain ⟨t, ht⟩ := idx_onto ⟨(i 0).val / 8, by omega⟩ ⟨(i 1).val / 256, by omega⟩
  have q0 : win0_7.index t (0 : Fin 3) = (i 0).val / 8 := congrFun ht 0
  have q1 : win0_7.index t (1 : Fin 3) = (i 1).val / 256 := congrFun ht 1
  have q2 : win0_7.index t (2 : Fin 3) = 0 := congrFun ht 2
  refine ⟨t, flush0_7 t, ?_⟩
  rw [mem_blk7]
  intro a
  match a with
  | ⟨0, _⟩ => show win0_7.index t (0 : Fin 3) * 8 ≤ (i 0).val ∧ (i 0).val < win0_7.index t (0 : Fin 3) * 8 + 8; omega
  | ⟨1, _⟩ => show win0_7.index t (1 : Fin 3) * 256 ≤ (i 1).val ∧ (i 1).val < win0_7.index t (1 : Fin 3) * 256 + 256; omega
  | ⟨2, _⟩ => show win0_7.index t (2 : Fin 3) * 256 ≤ (i 2).val ∧ (i 2).val < win0_7.index t (2 : Fin 3) * 256 + 256; omega

/-- THE RESULT ARRAY after the run is `G` of the argument arrays. -/
theorem final (c : Dev nD) (hd : InDomain (argV m c) (argC m c) (argP m c) (tabV m c) (tabC m c) (tabP m c)) :
    (dats m 0 c).arrAt 7 cfg0.N = G (argV m c) (argC m c) (argP m c) (tabV m c) (tabC m c) (tabP m c) :=
  (dats m 0 c).arrAt_eq_of_cover 7 (G (argV m c) (argC m c) (argP m c) (tabV m c) (tabC m c) (tabP m c))
    (fun t _ => flushed_eq m c hd t) cover

/-- The kernel's run, read: the result at `G` of the arguments, the arguments unchanged. -/
theorem run (hd : ∀ c : Dev nD, InDomain (argV m c) (argC m c) (argP m c) (tabV m c) (tabC m c) (tabP m c)) :
    θ_run defs (onTc (τ := τ) (main (F := Ideal))) ⟨m, fun _ => 0, ρ⟩ fun r => ∀ c : Dev nD,
      r.2.mem ((c : Thread nD τ).loc main_v18) = G (argV m c) (argC m c) (argP m c) (tabV m c) (tabC m c) (tabP m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c (hd c)), (h c).2⟩)
    (Cert.KernelIdeal.Value.run_blocks m ρ)

end Cert.Embed.Kernel

end
-- ==== Proof.lean ====
/-
  The face encoder's embedding: a Pallas kernel that gathers by one-hot contraction against a jnp reference that
  gathers by indexing, equal over the extended reals.

  Both programs take three token arrays `[16, 6145]` and three tables of 256-wide rows and return, for each of 2048
  vertices of each of 16 batch rows, the sum over the vertex's three tokens of (value row + coordinate row + position
  row) · 16. The reference indexes the tables (wrapping a negative token, keeping an index inside the table); the
  kernel compares each token with every row number and contracts the 0/1 indicators with the table, split into the
  table and its rounding residue. The precondition keeps every table entry real and every token inside its table
  (Proof/PreDecode.lean); there the reference's result is `G` (Proof/RefValue.lean) and the kernel's is `G`
  (Proof/KernelValue.lean over Proof/KernelPoint.lean, Proof/KernelHost.lean and the arithmetic of
  Proof/PointAlgebra.lean). The frames are the generated ones; the idealization rewrote nothing.
-/
import proofs.«404823_j68453188763948_3_alg».proof.Defs
import proofs.«404823_j68453188763948_3_alg».proof.Proof.Gen.Kernel
import proofs.«404823_j68453188763948_3_alg».proof.Proof.Gen.Kernel.Skeleton
import proofs.«404823_j68453188763948_3_alg».proof.Proof.Gen.Kernel.Launch
import proofs.«404823_j68453188763948_3_alg».proof.Proof.Gen.Kernel.Points
import proofs.«404823_j68453188763948_3_alg».proof.Proof.Gen.Kernel.Frame
import proofs.«404823_j68453188763948_3_alg».proof.Proof.Gen.KernelIdeal
import proofs.«404823_j68453188763948_3_alg».proof.Proof.Gen.KernelIdeal.Skeleton
import proofs.«404823_j68453188763948_3_alg».proof.Proof.Gen.KernelIdeal.Launch
import proofs.«404823_j68453188763948_3_alg».proof.Proof.Gen.KernelIdeal.Points
import proofs.«404823_j68453188763948_3_alg».proof.Proof.Gen.KernelIdeal.Frame
import proofs.«404823_j68453188763948_3_alg».proof.Proof.Gen.ReferenceIdeal
import proofs.«404823_j68453188763948_3_alg».proof.Proof.Gen.Pre_finite_inputs
import proofs.«404823_j68453188763948_3_alg».proof.Proof.Gen.KernelIdeal.Value
import proofs.«404823_j68453188763948_3_alg».proof.Proof.Gen.ReferenceIdeal.Run
import proofs.«404823_j68453188763948_3_alg».proof.Proof.Gen.ReferenceIdeal.Read
import proofs.«404823_j68453188763948_3_alg».proof.Proof.PreDecode
import proofs.«404823_j68453188763948_3_alg».proof.Proof.RefValue
import proofs.«404823_j68453188763948_3_alg».proof.Proof.KernelValue
import Idealize.ShloMosaic.Adequacy
import Idealize.ShloMosaic.Init

noncomputable section

namespace Cert.Proof

open Idealize.ShloMosaic Idealize.SL.Sem

section Claims

variable [hK : Cert.Kernel.Facts] [hKI : Cert.KernelIdeal.Facts] [hRI : Cert.ReferenceIdeal.Facts] [hP : Cert.Pre_finite_inputs.Facts]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The kernel's run ends at `G` of its arguments (the precondition puts them in the domain); the reference's run
    ends at its last stage of arguments that agree with the kernel's, which is `G` of them. -/
theorem algebraic : Cert.algebraic_KernelIdeal_ReferenceIdeal := by
  intro m ρ m' ρ' hpre hagree
  have hd : ∀ c : Dev Cert.KernelIdeal.nD, Cert.Embed.InDomain (Cert.Embed.Kernel.argV m c) (Cert.Embed.Kernel.argC m c)
      (Cert.Embed.Kernel.argP m c) (Cert.Embed.Kernel.tabV m c) (Cert.Embed.Kernel.tabC m c) (Cert.Embed.Kernel.tabP m c) :=
    fun c => Cert.Embed.inDomain_of_pre _ _ _ _ _ _ (hpre c)
  refine ⟨fun c => Cert.Embed.G (Cert.Embed.Kernel.argV m c) (Cert.Embed.Kernel.argC m c) (Cert.Embed.Kernel.argP m c)
    (Cert.Embed.Kernel.tabV m c) (Cert.Embed.Kernel.tabC m c) (Cert.Embed.Kernel.tabP m c), Cert.Embed.Kernel.run m ρ hd, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2.1, (hagree c).2.2.1, (hagree c).2.2.2.1,
    (hagree c).2.2.2.2.1, (hagree c).2.2.2.2.2]
  exact Cert.Embed.ref_is_G _ _ _ _ _ _ (hd c)

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
